-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x10 : Shape := ⟨2, ![8192, 10]⟩
abbrev S8192x8192 : Shape := ⟨2, ![8192, 8192]⟩
abbrev S8192 : Shape := ⟨1, ![8192]⟩
abbrev S4x10x100 : Shape := ⟨3, ![4, 10, 100]⟩
abbrev S4x100 : Shape := ⟨2, ![4, 100]⟩
abbrev S4x100x100 : Shape := ⟨3, ![4, 100, 100]⟩
abbrev S_ : Shape := ⟨0, ![]⟩

class Facts : Prop where
  bcast_S_S8192x10 : S_.BroadcastsInDim S8192x10 (![] : Fin 0 → Fin S8192x10.rank)
  reducesTo_S8192x10_S_d0_1 : S8192x10.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S4x10x100 : S_.BroadcastsInDim S4x10x100 (![] : Fin 0 → Fin S4x10x100.rank)
  reducesTo_S4x10x100_S_d0_1_2 : S4x10x100.ReducesTo [0, 1, 2] S_
  bcast_S_S4x100 : S_.BroadcastsInDim S4x100 (![] : Fin 0 → Fin S4x100.rank)
  reducesTo_S4x100_S_d0_1 : S4x100.ReducesTo [0, 1] S_
  bcast_S_S4x100x100 : S_.BroadcastsInDim S4x100x100 (![] : Fin 0 → Fin S4x100x100.rank)
  reducesTo_S4x100x100_S_d0_1_2 : S4x100x100.ReducesTo [0, 1, 2] S_

variable [Facts]

def fn_part2 {F : FTy → Type} [FloatOps F] (main_arg8 : FVec F S4x100 .f32) (main_v33 : IVec S_ 1) : IVec S_ 1 :=
  let main_v34 : FVec F S4x100 .f32 := Host.absf main_arg8
  let main_cst_12 : FVec F S_ .f32 := constant S_ .f32 0x7F800000#32
  let main_v35 : FVec F S4x100 .f32 := broadcastInDim S4x100 ![] bcast_S_S4x100 main_cst_12
  let main_v36 : IVec S4x100 1 := cmpf .olt main_v34 main_v35
  let main_c_13 : IVec S_ 1 := constantI S_ 1 1#1
  let main_v37 : IVec S_ 1 := (fun x v => Host.reduce IntOp.andi x v reducesTo_S4x100_S_d0_1 h_S_) main_v36 main_c_13
  let main_v38 : IVec S_ 1 := andi main_v33 main_v37
  main_v38

def fn_part1 {F : FTy → Type} [FloatOps F] (main_arg5 : FVec F S4x10x100 .f32) (main_arg6 : FVec F S4x100 .f32) (main_arg7 : FVec F S4x100x100 .f32) (main_arg8 : FVec F S4x100 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S4x10x100 .f32 := Host.absf main_arg5
  let main_cst_6 : FVec F S_ .f32 := constant S_ .f32 0x7F800000#32
  let main_v20 : FVec F S4x10x100 .f32 := broadcastInDim S4x10x100 ![] bcast_S_S4x10x100 main_cst_6
  let main_v21 : IVec S4x10x100 1 := cmpf .olt main_v19 main_v20
  let main_c_7 : IVec S_ 1 := constantI S_ 1 1#1
  let main_v22 : IVec S_ 1 := (fun x v => Host.reduce IntOp.andi x v reducesTo_S4x10x100_S_d0_1_2 h_S_) main_v21 main_c_7
  let main_v23 : IVec S_ 1 := andi main_v18 main_v22
  let main_v24 : FVec F S4x100 .f32 := Host.absf main_arg6
  let main_cst_8 : FVec F S_ .f32 := constant S_ .f32 0x7F800000#32
  let main_v25 : FVec F S4x100 .f32 := broadcastInDim S4x100 ![] bcast_S_S4x100 main_cst_8
  let main_v26 : IVec S4x100 1 := cmpf .olt main_v24 main_v25
  let main_c_9 : IVec S_ 1 := constantI S_ 1 1#1
  let main_v27 : IVec S_ 1 := (fun x v => Host.reduce IntOp.andi x v reducesTo_S4x100_S_d0_1 h_S_) main_v26 main_c_9
  let main_v28 : IVec S_ 1 := andi main_v23 main_v27
  let main_v29 : FVec F S4x100x100 .f32 := Host.absf main_arg7
  let main_cst_10 : FVec F S_ .f32 := constant S_ .f32 0x7F800000#32
  let main_v30 : FVec F S4x100x100 .f32 := broadcastInDim S4x100x100 ![] bcast_S_S4x100x100 main_cst_10
  let main_v31 : IVec S4x100x100 1 := cmpf .olt main_v29 main_v30
  let main_c_11 : IVec S_ 1 := constantI S_ 1 1#1
  let main_v32 : IVec S_ 1 := (fun x v => Host.reduce IntOp.andi x v reducesTo_S4x100x100_S_d0_1_2 h_S_) main_v31 main_c_11
  let main_v33 : IVec S_ 1 := andi main_v28 main_v32
  fn_part2 (F := F) main_arg8 main_v33

def fn {F : FTy → Type} [FloatOps F] (main_arg0 : FVec F S8192x10 .f32) (main_arg1 : FVec F S8192x8192 .f32) (main_arg2 : FVec F S8192x8192 .f32) (main_arg3 : FVec F S8192x8192 .f32) (main_arg4 : IVec S8192 32) (main_arg5 : FVec F S4x10x100 .f32) (main_arg6 : FVec F S4x100 .f32) (main_arg7 : FVec F S4x100x100 .f32) (main_arg8 : FVec F S4x100 .f32) : IVec S_ 1 :=
  let main_v0 : FVec F S8192x10 .f32 := Host.absf main_arg0
  let main_cst : FVec F S_ .f32 := constant S_ .f32 0x7F800000#32
  let main_v1 : FVec F S8192x10 .f32 := broadcastInDim S8192x10 ![] bcast_S_S8192x10 main_cst
  let main_v2 : IVec S8192x10 1 := cmpf .olt main_v0 main_v1
  let main_c : IVec S_ 1 := constantI S_ 1 1#1
  let main_v3 : IVec S_ 1 := (fun x v => Host.reduce IntOp.andi x v reducesTo_S8192x10_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg5 main_arg6 main_arg7 main_arg8 main_v13 main_v16
-- ==== Kernel.lean ====
abbrev S8192x10 : Shape := ⟨2, ![8192, 10]⟩
abbrev S8192x8192 : Shape := ⟨2, ![8192, 8192]⟩
abbrev S8192 : Shape := ⟨1, ![8192]⟩
abbrev S4x10x100 : Shape := ⟨3, ![4, 10, 100]⟩
abbrev S4x100 : Shape := ⟨2, ![4, 100]⟩
abbrev S4x100x100 : Shape := ⟨3, ![4, 100, 100]⟩
abbrev S_ : Shape := ⟨0, ![]⟩
abbrev S4x100x128 : Shape := ⟨3, ![4, 100, 128]⟩
abbrev S4x128 : Shape := ⟨2, ![4, 128]⟩
abbrev S2x256x128 : Shape := ⟨3, ![2, 256, 128]⟩
abbrev S128 : Shape := ⟨1, ![128]⟩
abbrev S128x8192 : Shape := ⟨2, ![128, 8192]⟩
abbrev S1x256x128 : Shape := ⟨3, ![1, 256, 128]⟩
abbrev S256x128 : Shape := ⟨2, ![256, 128]⟩
abbrev S128x10 : Shape := ⟨2, ![128, 10]⟩
abbrev S128x128 : Shape := ⟨2, ![128, 128]⟩
abbrev S1x10x100 : Shape := ⟨3, ![1, 10, 100]⟩
abbrev S10x100 : Shape := ⟨2, ![10, 100]⟩
abbrev S1x100 : Shape := ⟨2, ![1, 100]⟩
abbrev S100 : Shape := ⟨1, ![100]⟩
abbrev S1x100x128 : Shape := ⟨3, ![1, 100, 128]⟩
abbrev S100x128 : Shape := ⟨2, ![100, 128]⟩
abbrev S1x128 : Shape := ⟨2, ![1, 128]⟩
abbrev S128x100 : Shape := ⟨2, ![128, 100]⟩
abbrev S256x100 : Shape := ⟨2, ![256, 100]⟩

abbrev nBuf : Space → Nat
  | .hbm => 19
  | .vmem => 16
  | .smem => 0
  | _ => 0

abbrev bufTy : (tb : Table) → Fin (tcTables nBuf tb) → BufTy
  | .hbm, ⟨0, _⟩ => ⟨S8192x10, .f32⟩
  | .hbm, ⟨1, _⟩ => ⟨S8192x8192, .f32⟩
  | .hbm, ⟨2, _⟩ => ⟨S8192x8192, .f32⟩
  | .hbm, ⟨3, _⟩ => ⟨S8192x8192, .f32⟩
  | .hbm, ⟨4, _⟩ => ⟨S8192, .i32⟩
  | .hbm, ⟨5, _⟩ => ⟨S4x10x100, .f32⟩
  | .hbm, ⟨6, _⟩ => ⟨S4x100, .f32⟩
  | .hbm, ⟨7, _⟩ => ⟨S4x100x100, .f32⟩
  | .hbm, ⟨8, _⟩ => ⟨S4x100, .f32⟩
  | .hbm, ⟨9, _⟩ => ⟨S_, .i32⟩
  | .hbm, ⟨10, _⟩ => ⟨S_, .f32⟩
  | .hbm, ⟨11, _⟩ => ⟨S4x100x128, .f32⟩
  | .hbm, ⟨12, _⟩ => ⟨S_, .i32⟩
  | .hbm, ⟨13, _⟩ => ⟨S_, .f32⟩
  | .hbm, ⟨14, _⟩ => ⟨S4x128, .f32⟩
  | .hbm, ⟨15, _⟩ => ⟨S2x256x128, .f32⟩
  | .hbm, ⟨16, _⟩ => ⟨S_, .f32⟩
  | .hbm, ⟨17, _⟩ => ⟨S256x128, .f32⟩
  | .hbm, ⟨18, _⟩ => ⟨S256x100, .f32⟩
  | .local _ .vmem, ⟨0, _⟩ => ⟨S8192x10, .f32⟩
  | .local _ .vmem, ⟨1, _⟩ => ⟨S128, .i32⟩
  | .local _ .vmem, ⟨2, _⟩ => ⟨S128, .i32⟩
  | .local _ .vmem, ⟨3, _⟩ => ⟨S128x8192, .f32⟩
  | .local _ .vmem, ⟨4, _⟩ => ⟨S128x8192, .f32⟩
  | .local _ .vmem, ⟨5, _⟩ => ⟨S128x8192, .f32⟩
  | .local _ .vmem, ⟨6, _⟩ => ⟨S128x8192, .f32⟩
  | .local _ .vmem, ⟨7, _⟩ => ⟨S128x8192, .f32⟩
  | .local _ .vmem, ⟨8, _⟩ => ⟨S128x8192, .f32⟩
  | .local _ .vmem, ⟨9, _⟩ => ⟨S4x10x100, .f32⟩
  | .local _ .vmem, ⟨10, _⟩ => ⟨S4x100, .f32⟩
  | .local _ .vmem, ⟨11, _⟩ => ⟨S4x100x128, .f32⟩
  | .local _ .vmem, ⟨12, _⟩ => ⟨S4x128, .f32⟩
  | .local _ .vmem, ⟨13, _⟩ => ⟨S1x256x128, .f32⟩
  | .local _ .vmem, ⟨14, _⟩ => ⟨S1x256x128, .f32⟩
  | .local _ .vmem, ⟨15, _⟩ => ⟨S256x128, .f32⟩
  | _, _ => ⟨S8192x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_c_0 : Ref sig .tc := ⟨.hbm, 12, rfl⟩
abbrev main_call1_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let arg0 : BitVec 32 := BitVec.ofNat 32 (i 0).val
  let c32_i32 : BitVec 32 := 32#32
  let v14 : BitVec 32 := Scalar.muli arg0 c32_i32
  let arg1 : BitVec 32 := BitVec.ofNat 32 (i 1).val
  let v15 : BitVec 32 := Scalar.addi v14 arg1
  let c128_i32 : BitVec 32 := 128#32
  let v16 : BitVec 32 := Scalar.muli v15 c128_i32
  v16
def k0_off1 (i : grid0.Coords) : Fin 2 → Nat :=
  let arg0 : BitVec 32 := BitVec.ofNat 32 (i 0).val
  let c32_i32 : BitVec 32 := 32#32
  let v14 : BitVec 32 := Scalar.muli arg0 c32_i32
  let arg1 : BitVec 32 := BitVec.ofNat 32 (i 1).val
  let v15 : BitVec 32 := Scalar.addi v14 arg1
  let c128_i32 : BitVec 32 := 128#32
  let v16 : BitVec 32 := Scalar.muli v15 c128_i32
  let v17 : BitVec 32 := v16
  let v18 : Index := Scalar.indexCast v17
  let c0_10 : Index := 0#32
  ![v18.toNat, 0]
def k0_cond2 (i : grid0.Coords) : BitVec 1 :=
  let arg1 : BitVec 32 := BitVec.ofNat 32 (i 1).val
  let c31_i32 : BitVec 32 := 31#32
  let v132 : BitVec 1 := Scalar.cmpi .eq arg1 c31_i32
  let v133 : BitVec 32 := Scalar.extui v132
  let c0_i32_40 : BitVec 32 := 0#32
  let v134 : BitVec 1 := Scalar.cmpi .ne v133 c0_i32_40
  v134

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  ![v1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8192x10 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x10x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x100x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  pads_S4x100x100_S4x100x128_000_000_0280 : S4x100x100.Pads (![0, 0, 0] : Fin 3 → Nat) ![0, 0, 28] ![0, 0, 0] S4x100x128
  h_S_ : 0 < S_.numel
  pads_S4x100_S4x128_000_0280 : S4x100.Pads (![0, 0] : Fin 2 → Nat) ![0, 28] ![0, 0] S4x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S8192x10_S8192x10_0_0 : ∀ a, (![0, 0] : Fin 2 → Nat) a + S8192x10.size a ≤ S8192x10.size a
  h_S8192x10 : 0 < S8192x10.numel
  bitsLt_bf16_f32 : FTy.bits .bf16 < FTy.bits .f32
  inb_S128x8192_S128x8192_0_0 : ∀ a, (![0, 0] : Fin 2 → Nat) a + S128x8192.size a ≤ S128x8192.size a
  h_S128x8192 : 0 < S128x8192.numel
  h_S128x10 : 0 < S128x10.numel
  inb_S4x10x100_S4x10x100_0_0_0 : ∀ a, (![0, 0, 0] : Fin 3 → Nat) a + S4x10x100.size a ≤ S4x10x100.size a
  h_S4x10x100 : 0 < S4x10x100.numel
  inb_S4x100_S4x100_0_0 : ∀ a, (![0, 0] : Fin 2 → Nat) a + S4x100.size a ≤ S4x100.size a
  h_S4x100 : 0 < S4x100.numel
  inb_S4x100x128_S4x100x128_0_0_0 : ∀ a, (![0, 0, 0] : Fin 3 → Nat) a + S4x100x128.size a ≤ S4x100x128.size a
  h_S4x100x128 : 0 < S4x100x128.numel
  shapeCasts_S4x100x128_S4x100x128 : S4x100x128.ShapeCasts S4x100x128
  inb_S4x128_S4x128_0_0 : ∀ a, (![0, 0] : Fin 2 → Nat) a + S4x128.size a ≤ S4x128.size a
  h_S4x128 : 0 < S4x128.numel
  shapeCasts_S4x128_S4x128 : S4x128.ShapeCasts S4x128
  slices_S4x10x100_o0_0_0_S1x10x100 : S4x10x100.Slices ![0, 0, 0] S1x10x100
  shapeCasts_S1x10x100_S10x100 : S1x10x100.ShapeCasts S10x100
  slices_S4x100_o0_0_S1x100 : S4x100.Slices ![0, 0] S1x100
  shapeCasts_S1x100_S100 : S1x100.ShapeCasts S100
  slices_S4x100x128_o0_0_0_S1x100x128 : S4x100x128.Slices ![0, 0, 0] S1x100x128
  shapeCasts_S1x100x128_S100x128 : S1x100x128.ShapeCasts S100x128
  slices_S4x128_o0_0_S1x128 : S4x128.Slices ![0, 0] S1x128
  shapeCasts_S1x128_S128 : S1x128.ShapeCasts S128
  shapeCasts_S100_S1x100 : S100.ShapeCasts S1x100
  broadcasts_S1x100_S128x100 : S1x100.Broadcasts S128x100
  shapeCasts_S128_S1x128 : S128.ShapeCasts S1x128
  broadcasts_S1x128_S128x128 : S1x128.Broadcasts S128x128
  slices_S4x10x100_o1_0_0_S1x10x100 : S4x10x100.Slices ![1, 0, 0] S1x10x100
  slices_S4x100_o1_0_S1x100 : S4x100.Slices ![1, 0] S1x100
  slices_S4x100x128_o1_0_0_S1x100x128 : S4x100x128.Slices ![1, 0, 0] S1x100x128
  slices_S4x128_o1_0_S1x128 : S4x128.Slices ![1, 0] S1x128
  slices_S4x10x100_o2_0_0_S1x10x100 : S4x10x100.Slices ![2, 0, 0] S1x10x100
  slices_S4x100_o2_0_S1x100 : S4x100.Slices ![2, 0] S1x100
  slices_S4x100x128_o2_0_0_S1x100x128 : S4x100x128.Slices ![2, 0, 0] S1x100x128
  slices_S4x128_o2_0_S1x128 : S4x128.Slices ![2, 0] S1x128
  slices_S4x10x100_o3_0_0_S1x10x100 : S4x10x100.Slices ![3, 0, 0] S1x10x100
  slices_S4x100_o3_0_S1x100 : S4x100.Slices ![3, 0] S1x100
  slices_S4x100x128_o3_0_0_S1x100x128 : S4x100x128.Slices ![3, 0, 0] S1x100x128
  slices_S4x128_o3_0_S1x128 : S4x128.Slices ![3, 0] S1x128
  inb_S128_S128_0 : ∀ a, (![0] : Fin 1 → Nat) a + S128.size a ≤ S128.size a
  h_S128 : 0 < S128.numel
  iota_S256x128_d0_w32 : S256x128.Iotas .tc 32 [0]
  broadcasts_S1x128_S256x128 : S1x128.Broadcasts S256x128
  natLt_1_32 : 1 < 32
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  reducesTo_S2x256x128_S256x128_d0 : S2x256x128.ReducesTo [0] S256x128
  slices_S256x128_S256x100_0_0 : S256x128.Slices ![0, 0] S256x100
  dot_S128x8192_S8192x10_S128x10_1_0_0_1_n_n_wf : DotDims.WF S128x8192 S8192x10 S128x10 [1] [0] [0] [1] [] []
  dot_S128x10_S10x100_S128x100_1_0_0_1_n_n_wf : DotDims.WF S128x10 S10x100 S128x100 [1] [0] [0] [1] [] []
  dot_S128x100_S100x128_S128x128_1_0_0_1_n_n_wf : DotDims.WF S128x100 S100x128 S128x128 [1] [0] [0] [1] [] []
  dot_S256x128_S128x128_S256x128_1_0_0_1_n_n_wf : DotDims.WF S256x128 S128x128 S256x128 [1] [0] [0] [1] [] []
  hrank0 : 0 < grid0.rank
  k0_mult1_dvd : ∀ i : grid0.Coords, 128 ∣ (k0_mult1 i).toNat
  k0_off1_inb : ∀ i : grid0.Coords, ∀ a, (k0_off1 i) a + S128x10.size a ≤ S8192x10.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x10.size a ≤ S8192x10.size a
  hwx0_0 : ∀ i : grid0.Coords, EltTy.bits .f32 = 32 ∨ (Rect.block (s := S8192x10) S8192x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S8192.size a
  hwx0_1 : ∀ i : grid0.Coords, EltTy.bits .i32 = 32 ∨ (Rect.block (s := S8192) S128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S8192x8192.size a
  hwx0_2 : ∀ i : grid0.Coords, EltTy.bits .f32 = 32 ∨ (Rect.block (s := S8192x8192) S128x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x8192.size a ≤ S8192x8192.size a
  hwx0_3 : ∀ i : grid0.Coords, EltTy.bits .f32 = 32 ∨ (Rect.block (s := S8192x8192) S128x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x8192.size a ≤ S8192x8192.size a
  hwx0_4 : ∀ i : grid0.Coords, EltTy.bits .f32 = 32 ∨ (Rect.block (s := S8192x8192) S128x8192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x10x100.size a ≤ S4x10x100.size a
  hwx0_5 : ∀ i : grid0.Coords, EltTy.bits .f32 = 32 ∨ (Rect.block (s := S4x10x100) S4x10x100.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x100.size a ≤ S4x100.size a
  hwx0_6 : ∀ i : grid0.Coords, EltTy.bits .f32 = 32 ∨ (Rect.block (s := S4x100) S4x100.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x100x128.size a ≤ S4x100x128.size a
  hwx0_7 : ∀ i : grid0.Coords, EltTy.bits .f32 = 32 ∨ (Rect.block (s := S4x100x128) S4x100x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x128.size a ≤ S4x128.size a
  hwx0_8 : ∀ i : grid0.Coords, EltTy.bits .f32 = 32 ∨ (Rect.block (s := S4x128) S4x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x128.size a ≤ S2x256x128.size a
  hwx0_9 : ∀ i : grid0.Coords, EltTy.bits .f32 = 32 ∨ (Rect.block (s := S2x256x128) S1x256x128.size (cc0_transform_9 i) (hinb0_9 i)).WholeWords (EltTy.packing .f32)

variable [Facts₀]

def dot_S128x8192_S8192x10_S128x10_1_0_0_1_n_n : DotDims S128x8192 S8192x10 S128x10 where
  lhsContracting := [1]
  rhsContracting := [0]
  lhsNonContracting := [0]
  rhsNonContracting := [1]
  lhsBatch := []
  rhsBatch := []
  wf := dot_S128x8192_S8192x10_S128x10_1_0_0_1_n_n_wf
def dot_S128x10_S10x100_S128x100_1_0_0_1_n_n : DotDims S128x10 S10x100 S128x100 where
  lhsContracting := [1]
  rhsContracting := [0]
  lhsNonContracting := [0]
  rhsNonContracting := [1]
  lhsBatch := []
  rhsBatch := []
  wf := dot_S128x10_S10x100_S128x100_1_0_0_1_n_n_wf
def dot_S128x100_S100x128_S128x128_1_0_0_1_n_n : DotDims S128x100 S100x128 S128x128 where
  lhsContracting := [1]
  rhsContracting := [0]
  lhsNonContracting := [0]
  rhsNonContracting := [1]
  lhsBatch := []
  rhsBatch := []
  wf := dot_S128x100_S100x128_S128x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_arg0) S8192x10.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x8192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x10x100.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x100.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S4x100x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S4x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S1x256x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S8192x10 : Shape := ⟨2, ![8192, 10]⟩
abbrev S8192x8192 : Shape := ⟨2, ![8192, 8192]⟩
abbrev S8192 : Shape := ⟨1, ![8192]⟩
abbrev S4x10x100 : Shape := ⟨3, ![4, 10, 100]⟩
abbrev S4x100 : Shape := ⟨2, ![4, 100]⟩
abbrev S4x100x100 : Shape := ⟨3, ![4, 100, 100]⟩
abbrev S1x8192x8192 : Shape := ⟨3, ![1, 8192, 8192]⟩
abbrev S3x8192x8192 : Shape := ⟨3, ![3, 8192, 8192]⟩
abbrev S3x8192x10 : Shape := ⟨3, ![3, 8192, 10]⟩
abbrev S1x8192x10 : Shape := ⟨3, ![1, 8192, 10]⟩
abbrev S4x8192x10 : Shape := ⟨3, ![4, 8192, 10]⟩
abbrev S4x8192x100 : Shape := ⟨3, ![4, 8192, 100]⟩
abbrev S4x1x100 : Shape := ⟨3, ![4, 1, 100]⟩
abbrev S_ : Shape := ⟨0, ![]⟩
abbrev S8192x100 : Shape := ⟨2, ![8192, 100]⟩
abbrev S256x100 : Shape := ⟨2, ![256, 100]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x10, .f32⟩
  | .hbm, ⟨1, _⟩ => ⟨S8192x8192, .f32⟩
  | .hbm, ⟨2, _⟩ => ⟨S8192x8192, .f32⟩
  | .hbm, ⟨3, _⟩ => ⟨S8192x8192, .f32⟩
  | .hbm, ⟨4, _⟩ => ⟨S8192, .i32⟩
  | .hbm, ⟨5, _⟩ => ⟨S4x10x100, .f32⟩
  | .hbm, ⟨6, _⟩ => ⟨S4x100, .f32⟩
  | .hbm, ⟨7, _⟩ => ⟨S4x100x100, .f32⟩
  | .hbm, ⟨8, _⟩ => ⟨S4x100, .f32⟩
  | .hbm, ⟨9, _⟩ => ⟨S1x8192x8192, .f32⟩
  | .hbm, ⟨10, _⟩ => ⟨S1x8192x8192, .f32⟩
  | .hbm, ⟨11, _⟩ => ⟨S1x8192x8192, .f32⟩
  | .hbm, ⟨12, _⟩ => ⟨S3x8192x8192, .f32⟩
  | .hbm, ⟨13, _⟩ => ⟨S3x8192x10, .f32⟩
  | .hbm, ⟨14, _⟩ => ⟨S1x8192x10, .f32⟩
  | .hbm, ⟨15, _⟩ => ⟨S4x8192x10, .f32⟩
  | .hbm, ⟨16, _⟩ => ⟨S4x8192x100, .f32⟩
  | .hbm, ⟨17, _⟩ => ⟨S4x1x100, .f32⟩
  | .hbm, ⟨18, _⟩ => ⟨S4x8192x100, .f32⟩
  | .hbm, ⟨19, _⟩ => ⟨S4x8192x100, .f32⟩
  | .hbm, ⟨20, _⟩ => ⟨S_, .f32⟩
  | .hbm, ⟨21, _⟩ => ⟨S4x8192x100, .f32⟩
  | .hbm, ⟨22, _⟩ => ⟨S4x8192x100, .f32⟩
  | .hbm, ⟨23, _⟩ => ⟨S4x8192x100, .f32⟩
  | .hbm, ⟨24, _⟩ => ⟨S4x1x100, .f32⟩
  | .hbm, ⟨25, _⟩ => ⟨S4x8192x100, .f32⟩
  | .hbm, ⟨26, _⟩ => ⟨S4x8192x100, .f32⟩
  | .hbm, ⟨27, _⟩ => ⟨S_, .f32⟩
  | .hbm, ⟨28, _⟩ => ⟨S8192x100, .f32⟩
  | .hbm, ⟨29, _⟩ => ⟨S_, .f32⟩
  | .hbm, ⟨30, _⟩ => ⟨S256x100, .f32⟩
  | .hbm, ⟨31, _⟩ => ⟨S8192x1, .i32⟩
  | .hbm, ⟨32, _⟩ => ⟨S256x100, .f32⟩
  | _, _ => ⟨S8192x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_cst : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  bcast_S8192x8192_S1x8192x8192_1_2 : S8192x8192.BroadcastsInDim S1x8192x8192 (![1, 2] : Fin 2 → Fin S1x8192x8192.rank)
  concatenates_S1x8192x8192_S1x8192x8192_S1x8192x8192_S3x8192x8192_d0 : Shape.Concatenates [S1x8192x8192, S1x8192x8192, S1x8192x8192] S3x8192x8192 0
  bcast_S8192x10_S1x8192x10_1_2 : S8192x10.BroadcastsInDim S1x8192x10 (![1, 2] : Fin 2 → Fin S1x8192x10.rank)
  concatenates_S1x8192x10_S3x8192x10_S4x8192x10_d0 : Shape.Concatenates [S1x8192x10, S3x8192x10] S4x8192x10 0
  bcast_S4x100_S4x1x100_0_2 : S4x100.BroadcastsInDim S4x1x100 (![0, 2] : Fin 2 → Fin S4x1x100.rank)
  bcast_S4x1x100_S4x8192x100_0_1_2 : S4x1x100.BroadcastsInDim S4x8192x100 (![0, 1, 2] : Fin 3 → Fin S4x8192x100.rank)
  bcast_S_S4x8192x100 : S_.BroadcastsInDim S4x8192x100 (![] : Fin 0 → Fin S4x8192x100.rank)
  reducesTo_S4x8192x100_S8192x100_d0 : S4x8192x100.ReducesTo [0] S8192x100
  h_S_ : 0 < S_.numel
  bcast_S_S256x100 : S_.BroadcastsInDim S256x100 (![] : Fin 0 → Fin S256x100.rank)
  bcast_S8192_S8192x1_0 : S8192.BroadcastsInDim S8192x1 (![0] : Fin 1 → Fin S8192x1.rank)
  dot_S3x8192x8192_S8192x10_S3x8192x10_2_0_01_1_n_n_wf : DotDims.WF S3x8192x8192 S8192x10 S3x8192x10 [2] [0] [0, 1] [1] [] []
  dot_S4x8192x10_S4x10x100_S4x8192x100_2_1_1_2_0_0_wf : DotDims.WF S4x8192x10 S4x10x100 S4x8192x100 [2] [1] [1] [2] [0] [0]
  dot_S4x8192x100_S4x100x100_S4x8192x100_2_1_1_2_0_0_wf : DotDims.WF S4x8192x100 S4x100x100 S4x8192x100 [2] [1] [1] [2] [0] [0]
  scatter_S256x100_S8192x1_S8192x100_1_0_0_1_wf : ScatterDims.WF S256x100 S8192x1 S8192x100 [1] [0] [0] 1

variable [Facts₀]

def dot_S3x8192x8192_S8192x10_S3x8192x10_2_0_01_1_n_n : DotDims S3x8192x8192 S8192x10 S3x8192x10 where
  lhsContracting := [2]
  rhsContracting := [0]
  lhsNonContracting := [0, 1]
  rhsNonContracting := [1]
  lhsBatch := []
  rhsBatch := []
  wf := dot_S3x8192x8192_S8192x10_S3x8192x10_2_0_01_1_n_n_wf
def dot_S4x8192x10_S4x10x100_S4x8192x100_2_1_1_2_0_0 : DotDims S4x8192x10 S4x10x100 S4x8192x100 where
  lhsContracting := [2]
  rhsContracting := [1]
  lhsNonContracting := [1]
  rhsNonContracting := [2]
  lhsBatch := [0]
  rhsBatch := [0]
  wf := dot_S4x8192x10_S4x10x100_S4x8192x100_2_1_1_2_0_0_wf
def dot_S4x8192x100_S4x100x100_S4x8192x100_2_1_1_2_0_0 : DotDims S4x8192x100 S4x100x100 S4x8192x100 where
  lhsContracting := [2]
  rhsContracting := [1]
  lhsNonContracting := [1]
  rhsNonContracting := [2]
  lhsBatch := [0]
  rhsBatch := [0]
  wf := dot_S4x8192x100_S4x100x100_S4x8192x100_2_1_1_2_0_0_wf
def scatter_S256x100_S8192x1_S8192x100_1_0_0_1 : ScatterDims S256x100 S8192x1 S8192x100 where
  updateWindowDims := [1]
  insertedWindowDims := [0]
  scatterDimsToOperandDims := [0]
  indexVectorDim := 1
  wf := scatter_S256x100_S8192x1_S8192x100_1_0_0_1_wf

class Facts : Prop extends Facts₀ where

variable [Facts]
-- ==== Proof.BodyTerm.lean ====
/-
  The value one grid point's body stores into the carried accumulator, as one term of what the body loads.

  At a grid point the body loads the whole feature matrix, the point's 128 rows of it, the point's 128 segment ids, the
  point's 128 rows of each hop matrix, and the four branches' weights; it computes the 128 node values of the block
  (128 columns wide, the last layer padded), multiplies them from the left by the 256 × 128 one-hot matrix of the
  segment ids, and adds the product to what the accumulator held.  `blockOut` is that stored value as the printed
  payload terms compose; the instance of the float operations is left general.
-/
import proofs.«409326_j70961449664573_3_alg».proof.Proof.Gen.KernelIdeal.Skeleton

noncomputable section

namespace Cert.KernelIdeal.Body

open Cert.KernelIdeal Cert.KernelIdeal.Gen Idealize.ShloMosaic

variable {F : FTy → Type} [FloatOps F]

/-- What the body stores into the accumulator: the accumulator's loaded contents `prev` plus the one-hot product of
    the block's node values, over the loads `x0` (all features), `xb` (the block's features), `i1` (the block's
    segment ids), `h1 h2 h3` (the block's hop rows) and the weights `w1 c1 w2 c2`. -/
def blockOut (x0 : Vec F S8192x10 .f32) (xb : Vec F S128x10 .f32) (i1 : Vec F S128 .i32)
    (h1 h2 h3 : Vec F S128x8192 .f32) (w1 : Vec F S4x10x100 .f32) (c1 : Vec F S4x100 .f32)
    (w2 : Vec F S4x100x128 .f32) (c2 : Vec F S4x128 .f32) (prev : Vec F S256x128 .f32) : FVec F S256x128 .f32 :=
  k0_pay18 (k0_pay6 x0 h3) w1 c1 (k0_pay7 w2) (k0_pay8 c2)
    (k0_pay12 (k0_pay4 x0 h1) w1 c1 (k0_pay7 w2) (k0_pay8 c2) (k0_pay9 (F := F)) (k0_pay10 xb) (k0_pay11 w1))
    (k0_pay13 (k0_pay5 x0 h2)) (k0_pay14 w1) (k0_pay15 c1) (k0_pay16 (k0_pay7 w2)) (k0_pay17 (k0_pay8 c2)) i1 prev

end Cert.KernelIdeal.Body

end
-- ==== Proof.Pieces.lean ====
/-
  What each control case of the body leaves in the carried accumulator and in the output block, as values.

  Away from the first inner step the body loads the accumulator, adds the block's one-hot product and stores the sum;
  at the first inner step it first stores zeros, so the sum starts from zero; at the last inner step it also copies
  the updated accumulator into the output block.
-/
import proofs.«409326_j70961449664573_3_alg».proof.Proof.Gen.KernelIdeal.Frame
import proofs.«409326_j70961449664573_3_alg».proof.Proof.BodyTerm
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem

variable {F : FTy → Type} [FloatOps F]

/-- The block's own 128 feature rows: the rows of the whole feature matrix starting at the point's row offset. -/
def ownRows (i : grid0.Coords) (x0 : Vec F S8192x10 .f32) : Vec F S128x10 .f32 :=
  View.ld x0 (Rect.unit (s := S8192x10) (k0_off1 i) S128x10.size (k0_off1_inb i))

/-- Away from the first inner step the accumulator ends at the block's one-hot product added to what it held. -/
theorem sout_B (c : Dev nD) (i : grid0.Coords) (arg2 : Memref sig .tc .vmem S8192x10 .f32) (harg2 : arg2.IsWhole) (arg3 : Memref sig .tc .vmem S128 .i32) (harg3 : arg3.IsWhole) (arg4 : Memref sig .tc .vmem S128x8192 .f32) (harg4 : arg4.IsWhole) (arg5 : Memref sig .tc .vmem S128x8192 .f32) (harg5 : arg5.IsWhole) (arg6 : Memref sig .tc .vmem S128x8192 .f32) (harg6 : arg6.IsWhole) (arg7 : Memref sig .tc .vmem S4x10x100 .f32) (harg7 : arg7.IsWhole) (arg8 : Memref sig .tc .vmem S4x100 .f32) (harg8 : arg8.IsWhole) (arg9 : Memref sig .tc .vmem S4x100x128 .f32) (harg9 : arg9.IsWhole) (arg10 : Memref sig .tc .vmem S4x128 .f32) (harg10 : arg10.IsWhole) (arg11 : Memref sig .tc .vmem S1x256x128 .f32) (harg11 : arg11.IsWhole) (arg12 : Memref sig .tc .vmem S256x128 .f32) (harg12 : arg12.IsWhole) (hc0 : ¬cond0_0 i) (hc1 : ¬cond0_1 i) (x0 : Vec F S8192x10 .f32) (x1 : Vec F S128 .i32) (x2 : Vec F S128x8192 .f32) (x3 : Vec F S128x8192 .f32) (x4 : Vec F S128x8192 .f32) (x5 : Vec F S4x10x100 .f32) (x6 : Vec F S4x100 .f32) (x7 : Vec F S4x100x128 .f32) (x8 : Vec F S4x128 .f32) (xs0 : Vec F S256x128 .f32) :
    sout0_B_0 (F := F) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0
      = blockOut x0 (ownRows i x0) x1 x2 x3 x4 x5 x6 x7 x8 xs0 := by
  have hz2 : (![0, 0] : Fin 2 → Nat) = fun _ => 0 := by funext a; fin_cases a <;> rfl
  have hz3 : (![0, 0, 0] : Fin 3 → Nat) = fun _ => 0 := by funext a; fin_cases a <;> rfl
  have hz1 : (![0] : Fin 1 → Nat) = fun _ => 0 := by funext a; fin_cases a <;> rfl
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_B
  dsimp only
  sl_unfold_run_names
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread,
    View.ld_unit_zero (S := S8192x10) hz2, View.ld_unit_zero (S := S128x8192) hz2, View.ld_unit_zero (S := S4x10x100) hz3, View.ld_unit_zero (S := S4x100) hz2, View.ld_unit_zero (S := S4x100x128) hz3, View.ld_unit_zero (S := S4x128) hz2, View.ld_unit_zero (S := S128) hz1, View.ld_unit_zero (S := S256x128) hz2]
  rfl

/-- At the last inner step the accumulator ends the same way. -/
theorem sout_C (c : Dev nD) (i : grid0.Coords) (arg2 : Memref sig .tc .vmem S8192x10 .f32) (harg2 : arg2.IsWhole) (arg3 : Memref sig .tc .vmem S128 .i32) (harg3 : arg3.IsWhole) (arg4 : Memref sig .tc .vmem S128x8192 .f32) (harg4 : arg4.IsWhole) (arg5 : Memref sig .tc .vmem S128x8192 .f32) (harg5 : arg5.IsWhole) (arg6 : Memref sig .tc .vmem S128x8192 .f32) (harg6 : arg6.IsWhole) (arg7 : Memref sig .tc .vmem S4x10x100 .f32) (harg7 : arg7.IsWhole) (arg8 : Memref sig .tc .vmem S4x100 .f32) (harg8 : arg8.IsWhole) (arg9 : Memref sig .tc .vmem S4x100x128 .f32) (harg9 : arg9.IsWhole) (arg10 : Memref sig .tc .vmem S4x128 .f32) (harg10 : arg10.IsWhole) (arg11 : Memref sig .tc .vmem S1x256x128 .f32) (harg11 : arg11.IsWhole) (arg12 : Memref sig .tc .vmem S256x128 .f32) (harg12 : arg12.IsWhole) (hc0 : ¬cond0_0 i) (hc1 : cond0_1 i) (x0 : Vec F S8192x10 .f32) (x1 : Vec F S128 .i32) (x2 : Vec F S128x8192 .f32) (x3 : Vec F S128x8192 .f32) (x4 : Vec F S128x8192 .f32) (x5 : Vec F S4x10x100 .f32) (x6 : Vec F S4x100 .f32) (x7 : Vec F S4x100x128 .f32) (x8 : Vec F S4x128 .f32) (xs0 : Vec F S256x128 .f32) :
    sout0_C_0 (F := F) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0
      = blockOut x0 (ownRows i x0) x1 x2 x3 x4 x5 x6 x7 x8 xs0 := by
  have hz2 : (![0, 0] : Fin 2 → Nat) = fun _ => 0 := by funext a; fin_cases a <;> rfl
  have hz3 : (![0, 0, 0] : Fin 3 → Nat) = fun _ => 0 := by funext a; fin_cases a <;> rfl
  have hz1 : (![0] : Fin 1 → Nat) = fun _ => 0 := by funext a; fin_cases a <;> rfl
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  sl_unfold_run_names
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread,
    View.ld_unit_zero (S := S8192x10) hz2, View.ld_unit_zero (S := S128x8192) hz2, View.ld_unit_zero (S := S4x10x100) hz3, View.ld_unit_zero (S := S4x100) hz2, View.ld_unit_zero (S := S4x100x128) hz3, View.ld_unit_zero (S := S4x128) hz2, View.ld_unit_zero (S := S128) hz1, View.ld_unit_zero (S := S256x128) hz2]
  rfl

/-- At the last inner step the output block receives the updated accumulator, with a leading unit axis. -/
theorem out_C (c : Dev nD) (i : grid0.Coords) (arg2 : Memref sig .tc .vmem S8192x10 .f32) (harg2 : arg2.IsWhole) (arg3 : Memref sig .tc .vmem S128 .i32) (harg3 : arg3.IsWhole) (arg4 : Memref sig .tc .vmem S128x8192 .f32) (harg4 : arg4.IsWhole) (arg5 : Memref sig .tc .vmem S128x8192 .f32) (harg5 : arg5.IsWhole) (arg6 : Memref sig .tc .vmem S128x8192 .f32) (harg6 : arg6.IsWhole) (arg7 : Memref sig .tc .vmem S4x10x100 .f32) (harg7 : arg7.IsWhole) (arg8 : Memref sig .tc .vmem S4x100 .f32) (harg8 : arg8.IsWhole) (arg9 : Memref sig .tc .vmem S4x100x128 .f32) (harg9 : arg9.IsWhole) (arg10 : Memref sig .tc .vmem S4x128 .f32) (harg10 : arg10.IsWhole) (arg11 : Memref sig .tc .vmem S1x256x128 .f32) (harg11 : arg11.IsWhole) (arg12 : Memref sig .tc .vmem S256x128 .f32) (harg12 : arg12.IsWhole) (hc0 : ¬cond0_0 i) (hc1 : cond0_1 i) (x0 : Vec F S8192x10 .f32) (x1 : Vec F S128 .i32) (x2 : Vec F S128x8192 .f32) (x3 : Vec F S128x8192 .f32) (x4 : Vec F S128x8192 .f32) (x5 : Vec F S4x10x100 .f32) (x6 : Vec F S4x100 .f32) (x7 : Vec F S4x100x128 .f32) (x8 : Vec F S4x128 .f32) (xs0 : Vec F S256x128 .f32) :
    out0_C_9 (F := F) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0
      = k0_pay1 (blockOut x0 (ownRows i x0) x1 x2 x3 x4 x5 x6 x7 x8 xs0) := by
  have hz2 : (![0, 0] : Fin 2 → Nat) = fun _ => 0 := by funext a; fin_cases a <;> rfl
  have hz3 : (![0, 0, 0] : Fin 3 → Nat) = fun _ => 0 := by funext a; fin_cases a <;> rfl
  have hz1 : (![0] : Fin 1 → Nat) = fun _ => 0 := by funext a; fin_cases a <;> rfl
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  sl_unfold_run_names
  rw [View.canon_unit_zero hz3]
  simp only [View.readCov_unit_zero (S := S256x128) _ hz2, View.readAt_eq_ld, harg2.read_unread, harg3.read_unread, harg4.read_unread, harg5.read_unread, harg6.read_unread, harg7.read_unread, harg8.read_unread, harg9.read_unread, harg10.read_unread, harg12.read_unread,
    View.ld_unit_zero (S := S8192x10) hz2, View.ld_unit_zero (S := S128x8192) hz2, View.ld_unit_zero (S := S4x10x100) hz3, View.ld_unit_zero (S := S4x100) hz2, View.ld_unit_zero (S := S4x100x128) hz3, View.ld_unit_zero (S := S4x128) hz2, View.ld_unit_zero (S := S128) hz1, View.ld_unit_zero (S := S256x128) hz2]
  rfl

/-- At the first inner step the accumulator is zeroed first, so it ends at the block's one-hot product added to zero. -/
theorem sout_A (c : Dev nD) (i : grid0.Coords) (arg2 : Memref sig .tc .vmem S8192x10 .f32) (harg2 : arg2.IsWhole) (arg3 : Memref sig .tc .vmem S128 .i32) (harg3 : arg3.IsWhole) (arg4 : Memref sig .tc .vmem S128x8192 .f32) (harg4 : arg4.IsWhole) (arg5 : Memref sig .tc .vmem S128x8192 .f32) (harg5 : arg5.IsWhole) (arg6 : Memref sig .tc .vmem S128x8192 .f32) (harg6 : arg6.IsWhole) (arg7 : Memref sig .tc .vmem S4x10x100 .f32) (harg7 : arg7.IsWhole) (arg8 : Memref sig .tc .vmem S4x100 .f32) (harg8 : arg8.IsWhole) (arg9 : Memref sig .tc .vmem S4x100x128 .f32) (harg9 : arg9.IsWhole) (arg10 : Memref sig .tc .vmem S4x128 .f32) (harg10 : arg10.IsWhole) (arg11 : Memref sig .tc .vmem S1x256x128 .f32) (harg11 : arg11.IsWhole) (arg12 : Memref sig .tc .vmem S256x128 .f32) (harg12 : arg12.IsWhole) (hc0 : cond0_0 i) (hc1 : ¬cond0_1 i) (x0 : Vec F S8192x10 .f32) (x1 : Vec F S128 .i32) (x2 : Vec F S128x8192 .f32) (x3 : Vec F S128x8192 .f32) (x4 : Vec F S128x8192 .f32) (x5 : Vec F S4x10x100 .f32) (x6 : Vec F S4x100 .f32) (x7 : Vec F S4x100x128 .f32) (x8 : Vec F S4x128 .f32) :
    sout0_A_0 (F := F) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8
      = blockOut x0 (ownRows i x0) x1 x2 x3 x4 x5 x6 x7 x8 (k0_pay2 (F := F)) := by
  have hz2 : (![0, 0] : Fin 2 → Nat) = fun _ => 0 := by funext a; fin_cases a <;> rfl
  have hz3 : (![0, 0, 0] : Fin 3 → Nat) = fun _ => 0 := by funext a; fin_cases a <;> rfl
  have hz1 : (![0] : Fin 1 → Nat) = fun _ => 0 := by funext a; fin_cases a <;> rfl
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  unfold kernelRun0_A
  dsimp only
  sl_unfold_run_names
  rw [View.canon_cons_unit_zero (S := S256x128) hz2]
  simp only [View.readCov_unit_zero (S := S256x128) _ hz2, View.readAt_eq_ld, harg2.read_unread, harg3.read_unread, harg4.read_unread, harg5.read_unread, harg6.read_unread, harg7.read_unread, harg8.read_unread, harg9.read_unread, harg10.read_unread, harg12.read_unread,
    View.ld_unit_zero (S := S8192x10) hz2, View.ld_unit_zero (S := S128x8192) hz2, View.ld_unit_zero (S := S4x10x100) hz3, View.ld_unit_zero (S := S4x100) hz2, View.ld_unit_zero (S := S4x100x128) hz3, View.ld_unit_zero (S := S4x128) hz2, View.ld_unit_zero (S := S128) hz1, View.ld_unit_zero (S := S256x128) hz2]
  rfl

end Cert.KernelIdeal.Body

end
-- ==== Proof.Accum.lean ====
/-
  The carried accumulator and the output block after each grid point, as values of the point's input blocks.

  The grid has 64 points, 32 inner steps for each of the two outer coordinates.  After a point the accumulator holds
  the point's one-hot product added to what the point before left, or to zero at an inner step 0; at an inner step 31
  the output block receives the accumulator.
-/
import proofs.«409326_j70961449664573_3_alg».proof.Proof.Pieces

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ)

/-- The point's input blocks, each at its literal vector type. -/
abbrev blkX (c : Dev nD) (t : Fin cfg0.N) : Vec F S8192x10 .f32 := iblk m c 0 t
abbrev blkI (c : Dev nD) (t : Fin cfg0.N) : Vec F S128 .i32 := iblk m c 1 t
abbrev blkH1 (c : Dev nD) (t : Fin cfg0.N) : Vec F S128x8192 .f32 := iblk m c 2 t
abbrev blkH2 (c : Dev nD) (t : Fin cfg0.N) : Vec F S128x8192 .f32 := iblk m c 3 t
abbrev blkH3 (c : Dev nD) (t : Fin cfg0.N) : Vec F S128x8192 .f32 := iblk m c 4 t
abbrev blkW1 (c : Dev nD) (t : Fin cfg0.N) : Vec F S4x10x100 .f32 := iblk m c 5 t
abbrev blkC1 (c : Dev nD) (t : Fin cfg0.N) : Vec F S4x100 .f32 := iblk m c 6 t
abbrev blkW2 (c : Dev nD) (t : Fin cfg0.N) : Vec F S4x100x128 .f32 := iblk m c 7 t
abbrev blkC2 (c : Dev nD) (t : Fin cfg0.N) : Vec F S4x128 .f32 := iblk m c 8 t

/-- What point t stores into the accumulator when the accumulator's loaded contents are `prev`. -/
def stepOut (c : Dev nD) (t : Fin cfg0.N) (prev : Vec F S256x128 .f32) : Vec F S256x128 .f32 :=
  blockOut (blkX m c t) (ownRows (grid0.coords t) (blkX m c t)) (blkI m c t) (blkH1 m c t) (blkH2 m c t) (blkH3 m c t)
    (blkW1 m c t) (blkC1 m c t) (blkW2 m c t) (blkC2 m c t) prev

/-- The accumulator after point t, and the output block after it. -/
abbrev accAfter (c : Dev nD) (n : ℕ) (hn : n < cfg0.N) : Vec F S256x128 .f32 := (outsAt0 m c n hn).2
abbrev outAfter (c : Dev nD) (n : ℕ) (hn : n < cfg0.N) : Vec F S1x256x128 .f32 := (outsAt0 m c n hn).1

/-- At an inner step 0 the accumulator restarts from zero. -/
theorem accAfter_first (c : Dev nD) (t : Fin cfg0.N) (h0 : t.val % 32 = 0) (h1 : ¬t.val % 32 = 31) :
    accAfter m c t.val t.isLt = stepOut m c t (k0_pay2 (F := F)) := by
  show (outsAt0 m c t.val t.isLt).2 = _
  rw [outsAt0_A m c t h0 h1]
  dsimp only
  exact sout_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h))
    (iblk m c 0 t) (iblk m c 1 t) (iblk m c 2 t) (iblk m c 3 t) (iblk m c 4 t) (iblk m c 5 t) (iblk m c 6 t) (iblk m c 7 t) (iblk m c 8 t)

/-- At an inner step strictly between 0 and 31 it continues from what the point before left. -/
theorem accAfter_mid (c : Dev nD) (t : Fin cfg0.N) (h0 : ¬t.val % 32 = 0) (h1 : ¬t.val % 32 = 31) :
    accAfter m c t.val t.isLt
      = stepOut m c t (accAfter m c (t.val - 1) (Nat.lt_of_le_of_lt (Nat.sub_le _ _) t.isLt)) := by
  show (outsAt0 m c t.val t.isLt).2 = _
  rw [outsAt0_B m c t h0 h1]
  dsimp only
  exact sout_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h))
    (iblk m c 0 t) (iblk m c 1 t) (iblk m c 2 t) (iblk m c 3 t) (iblk m c 4 t) (iblk m c 5 t) (iblk m c 6 t) (iblk m c 7 t) (iblk m c 8 t)
    (outsAt0 m c (t.val - 1) (Nat.lt_of_le_of_lt (Nat.sub_le _ _) t.isLt)).2

/-- At an inner step 31 likewise, -/
theorem accAfter_last (c : Dev nD) (t : Fin cfg0.N) (h0 : ¬t.val % 32 = 0) (h1 : t.val % 32 = 31) :
    accAfter m c t.val t.isLt
      = stepOut m c t (accAfter m c (t.val - 1) (Nat.lt_of_le_of_lt (Nat.sub_le _ _) t.isLt)) := by
  show (outsAt0 m c t.val t.isLt).2 = _
  rw [outsAt0_C m c t h0 h1]
  dsimp only
  exact sout_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1)
    (iblk m c 0 t) (iblk m c 1 t) (iblk m c 2 t) (iblk m c 3 t) (iblk m c 4 t) (iblk m c 5 t) (iblk m c 6 t) (iblk m c 7 t) (iblk m c 8 t)
    (outsAt0 m c (t.val - 1) (Nat.lt_of_le_of_lt (Nat.sub_le _ _) t.isLt)).2

/-- and the output block receives that accumulator, with a leading unit axis. -/
theorem outAfter_last (c : Dev nD) (t : Fin cfg0.N) (h0 : ¬t.val % 32 = 0) (h1 : t.val % 32 = 31) :
    outAfter m c t.val t.isLt
      = k0_pay1 (stepOut m c t (accAfter m c (t.val - 1) (Nat.lt_of_le_of_lt (Nat.sub_le _ _) t.isLt))) := by
  show (outsAt0 m c t.val t.isLt).1 = _
  rw [outsAt0_C m c t h0 h1]
  dsimp only
  exact out_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1)
    (iblk m c 0 t) (iblk m c 1 t) (iblk m c 2 t) (iblk m c 3 t) (iblk m c 4 t) (iblk m c 5 t) (iblk m c 6 t) (iblk m c 7 t) (iblk m c 8 t)
    (outsAt0 m c (t.val - 1) (Nat.lt_of_le_of_lt (Nat.sub_le _ _) t.isLt)).2

end Cert.KernelIdeal.Body

end
-- ==== Proof.BlockReads.lean ====
/-
  The input blocks of a grid point read in their arrays.

  Grid point t (of 64) works on rows 128·t … 128·t + 127 of the three hop matrices and of the segment ids; the feature
  matrix and the four weight arrays are staged whole at every point.
-/
import proofs.«409326_j70961449664573_3_alg».proof.Proof.Accum
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-- Row r of point t's block is row 128·t + r of the array. -/
def rowOf (t : Fin cfg0.N) (r : Fin 128) : Fin 8192 :=
  ⟨128 * t.val + r.val, by have := t.isLt; have hN : cfg0.N = 64 := N_0; have := r.isLt; omega⟩

theorem rowOf_val (t : Fin cfg0.N) (r : Fin 128) : (rowOf t r).val = 128 * t.val + r.val := rfl

/-- The index maps over the grid: the row-blocked windows sit at block t, column block 0. -/
theorem idx_H1 : ∀ t : Fin cfg0.N, win0_2.index t (0 : Fin 2) = t.val ∧ win0_2.index t (1 : Fin 2) = 0 :=
  (by decide +kernel : ∀ t : Fin grid0.N, _)
theorem idx_I : ∀ t : Fin cfg0.N, win0_1.index t (0 : Fin 1) = t.val :=
  (by decide +kernel : ∀ t : Fin grid0.N, _)
theorem idx_X : ∀ t : Fin cfg0.N, win0_0.index t (0 : Fin 2) = 0 ∧ win0_0.index t (1 : Fin 2) = 0 :=
  (by decide +kernel : ∀ t : Fin grid0.N, _)

theorem rd_H1 (c : Dev nD) (t : Fin cfg0.N) (r : Fin 128) (k : Fin 8192) :
    blkH1 m c t (ix2 r k) = V m c main_arg1 (ix2 (rowOf t r) k) := by
  show V m c main_arg1 (((cfg0.win 2).blk t).view.emb (ix2 r k)) = _
  refine congrArg _ (funext fun a => Fin.ext ?_)
  match a with
  | ⟨0, _⟩ =>
    show win0_2.index t (0 : Fin 2) * 128 + 1 * r.val = 128 * t.val + r.val
    rw [(idx_H1 t).1]; omega
  | ⟨1, _⟩ =>
    show win0_2.index t (1 : Fin 2) * 8192 + 1 * k.val = k.val
    rw [(idx_H1 t).2]; omega

theorem rd_I (c : Dev nD) (t : Fin cfg0.N) (r : Fin 128) :
    blkI m c t (ix1 r) = V m c main_arg4 (ix1 (rowOf t r)) := by
  show V m c main_arg4 (((cfg0.win 1).blk t).view.emb (ix1 r)) = _
  refine congrArg _ (funext fun a => Fin.ext ?_)
  match a with
  | ⟨0, _⟩ =>
    show win0_1.index t (0 : Fin 1) * 128 + 1 * r.val = 128 * t.val + r.val
    rw [idx_I t]; omega

theorem rd_X (c : Dev nD) (t : Fin cfg0.N) (n : Fin 8192) (d : Fin 10) :
    blkX m c t (ix2 n d) = V m c main_arg0 (ix2 n d) := by
  show V m c main_arg0 (((cfg0.win 0).blk t).view.emb (ix2 n d)) = _
  refine congrArg _ (funext fun a => Fin.ext ?_)
  match a with
  | ⟨0, _⟩ =>
    show win0_0.index t (0 : Fin 2) * 8192 + 1 * n.val = n.val
    rw [(idx_X t).1]; omega
  | ⟨1, _⟩ =>
    show win0_0.index t (1 : Fin 2) * 10 + 1 * d.val = d.val
    rw [(idx_X t).2]; omega

theorem idx_H2 : ∀ t : Fin cfg0.N, win0_3.index t (0 : Fin 2) = t.val ∧ win0_3.index t (1 : Fin 2) = 0 :=
  (by decide +kernel : ∀ t : Fin grid0.N, _)
theorem idx_H3 : ∀ t : Fin cfg0.N, win0_4.index t (0 : Fin 2) = t.val ∧ win0_4.index t (1 : Fin 2) = 0 :=
  (by decide +kernel : ∀ t : Fin grid0.N, _)
theorem idx_W1 : ∀ t : Fin cfg0.N, win0_5.index t (0 : Fin 3) = 0 ∧ win0_5.index t (1 : Fin 3) = 0 ∧ win0_5.index t (2 : Fin 3) = 0 :=
  (by decide +kernel : ∀ t : Fin grid0.N, _)
theorem idx_C1 : ∀ t : Fin cfg0.N, win0_6.index t (0 : Fin 2) = 0 ∧ win0_6.index t (1 : Fin 2) = 0 :=
  (by decide +kernel : ∀ t : Fin grid0.N, _)
theorem idx_W2 : ∀ t : Fin cfg0.N, win0_7.index t (0 : Fin 3) = 0 ∧ win0_7.index t (1 : Fin 3) = 0 ∧ win0_7.index t (2 : Fin 3) = 0 :=
  (by decide +kernel : ∀ t : Fin grid0.N, _)
theorem idx_C2 : ∀ t : Fin cfg0.N, win0_8.index t (0 : Fin 2) = 0 ∧ win0_8.index t (1 : Fin 2) = 0 :=
  (by decide +kernel : ∀ t : Fin grid0.N, _)
/-- The row offset of the block's own feature rows over the grid. -/
theorem off_own : ∀ t : Fin cfg0.N, k0_off1 (grid0.coords t) (0 : Fin 2) = 128 * t.val ∧ k0_off1 (grid0.coords t) (1 : Fin 2) = 0 :=
  (by decide +kernel : ∀ t : Fin grid0.N, _)

theorem rd_H2 (c : Dev nD) (t : Fin cfg0.N) (r : Fin 128) (k : Fin 8192) :
    blkH2 m c t (ix2 r k) = V m c main_arg2 (ix2 (rowOf t r) k) := by
  show V m c main_arg2 (((cfg0.win 3).blk t).view.emb (ix2 r k)) = _
  refine congrArg _ (funext fun a => Fin.ext ?_)
  match a with
  | ⟨0, _⟩ =>
    show win0_3.index t (0 : Fin 2) * 128 + 1 * r.val = 128 * t.val + r.val
    rw [(idx_H2 t).1]; omega
  | ⟨1, _⟩ =>
    show win0_3.index t (1 : Fin 2) * 8192 + 1 * k.val = k.val
    rw [(idx_H2 t).2]; omega

theorem rd_H3 (c : Dev nD) (t : Fin cfg0.N) (r : Fin 128) (k : Fin 8192) :
    blkH3 m c t (ix2 r k) = V m c main_arg3 (ix2 (rowOf t r) k) := by
  show V m c main_arg3 (((cfg0.win 4).blk t).view.emb (ix2 r k)) = _
  refine congrArg _ (funext fun a => Fin.ext ?_)
  match a with
  | ⟨0, _⟩ =>
    show win0_4.index t (0 : Fin 2) * 128 + 1 * r.val = 128 * t.val + r.val
    rw [(idx_H3 t).1]; omega
  | ⟨1, _⟩ =>
    show win0_4.index t (1 : Fin 2) * 8192 + 1 * k.val = k.val
    rw [(idx_H3 t).2]; omega

theorem rd_W1 (c : Dev nD) (t : Fin cfg0.N) (k : Fin 4) (d : Fin 10) (j : Fin 100) :
    blkW1 m c t (ix3 k d j) = V m c main_arg5 (ix3 k d j) := by
  show V m c main_arg5 (((cfg0.win 5).blk t).view.emb (ix3 k d j)) = _
  refine congrArg _ (funext fun a => Fin.ext ?_)
  match a with
  | ⟨0, _⟩ =>
    show win0_5.index t (0 : Fin 3) * 4 + 1 * k.val = k.val
    rw [(idx_W1 t).1]; omega
  | ⟨1, _⟩ =>
    show win0_5.index t (1 : Fin 3) * 10 + 1 * d.val = d.val
    rw [(idx_W1 t).2.1]; omega
  | ⟨2, _⟩ =>
    show win0_5.index t (2 : Fin 3) * 100 + 1 * j.val = j.val
    rw [(idx_W1 t).2.2]; omega

theorem rd_C1 (c : Dev nD) (t : Fin cfg0.N) (k : Fin 4) (j : Fin 100) :
    blkC1 m c t (ix2 k j) = V m c main_arg6 (ix2 k j) := by
  show V m c main_arg6 (((cfg0.win 6).blk t).view.emb (ix2 k j)) = _
  refine congrArg _ (funext fun a => Fin.ext ?_)
  match a with
  | ⟨0, _⟩ =>
    show win0_6.index t (0 : Fin 2) * 4 + 1 * k.val = k.val
    rw [(idx_C1 t).1]; omega
  | ⟨1, _⟩ =>
    show win0_6.index t (1 : Fin 2) * 100 + 1 * j.val = j.val
    rw [(idx_C1 t).2]; omega

theorem rd_W2 (c : Dev nD) (t : Fin cfg0.N) (k : Fin 4) (j : Fin 100) (o : Fin 128) :
    blkW2 m c t (ix3 k j o) = V m c main_v0 (ix3 k j o) := by
  show V m c main_v0 (((cfg0.win 7).blk t).view.emb (ix3 k j o)) = _
  refine congrArg _ (funext fun a => Fin.ext ?_)
  match a with
  | ⟨0, _⟩ =>
    show win0_7.index t (0 : Fin 3) * 4 + 1 * k.val = k.val
    rw [(idx_W2 t).1]; omega
  | ⟨1, _⟩ =>
    show win0_7.index t (1 : Fin 3) * 100 + 1 * j.val = j.val
    rw [(idx_W2 t).2.1]; omega
  | ⟨2, _⟩ =>
    show win0_7.index t (2 : Fin 3) * 128 + 1 * o.val = o.val
    rw [(idx_W2 t).2.2]; omega

theorem rd_C2 (c : Dev nD) (t : Fin cfg0.N) (k : Fin 4) (o : Fin 128) :
    blkC2 m c t (ix2 k o) = V m c main_v1 (ix2 k o) := by
  show V m c main_v1 (((cfg0.win 8).blk t).view.emb (ix2 k o)) = _
  refine congrArg _ (funext fun a => Fin.ext ?_)
  match a with
  | ⟨0, _⟩ =>
    show win0_8.index t (0 : Fin 2) * 4 + 1 * k.val = k.val
    rw [(idx_C2 t).1]; omega
  | ⟨1, _⟩ =>
    show win0_8.index t (1 : Fin 2) * 128 + 1 * o.val = o.val
    rw [(idx_C2 t).2]; omega

/-- The block's own feature rows are rows 128·t … of the whole feature matrix. -/
theorem rd_own (t : Fin cfg0.N) (X : Vec F S8192x10 .f32) (r : Fin 128) (d : Fin 10) :
    ownRows (grid0.coords t) X (ix2 r d) = X (ix2 (rowOf t r) d) := by
  show X ((Rect.unit (s := S8192x10) (k0_off1 (grid0.coords t)) S128x10.size (k0_off1_inb (grid0.coords t))).emb (ix2 r d)) = _
  refine congrArg _ (funext fun a => Fin.ext ?_)
  match a with
  | ⟨0, _⟩ =>
    show k0_off1 (grid0.coords t) (0 : Fin 2) + 1 * r.val = 128 * t.val + r.val
    rw [(off_own t).1]; omega
  | ⟨1, _⟩ =>
    show k0_off1 (grid0.coords t) (1 : Fin 2) + 1 * d.val = d.val
    rw [(off_own t).2]; omega

end Cert.KernelIdeal.Body

end
-- ==== Proof.Spec.lean ====
/-
  The pooled output of the four-branch subgraph network, as one function of its arguments.

  A node n has random-walk features X n (a row of ten reals) and three hop projections (H_k X) n = ∑ m, H_k n m · X m.
  Each of the four feature rows goes through its own two-layer perceptron, relu (f · W1_k + b1_k) · W2_k + b2_k, and the
  four results are added: the node's value.  The pooled output at segment b and column o is the sum of the values, at
  column o, of the nodes whose segment id is b; a node whose id names no segment contributes to none.

  Everything is stated over the extended reals with curried index functions, so that a kernel that works on blocks of
  rows and a reference that works on whole arrays can both be read against it.
-/
import Idealize.ShloMosaic.PureOps.Ideal
import Idealize.ShloMosaic.Lib.ValueIdx

noncomputable section

namespace Cert.Pool

/-- One two-layer perceptron at one feature row f, read at output column o:
    (∑ j, max (∑ d, f d · w1 d j + c1 j) 0 · w2 j o) + c2 o. -/
def branch {P : Type} (f : Fin 10 → EReal) (w1 : Fin 10 → Fin 100 → EReal) (c1 : Fin 100 → EReal)
    (w2 : Fin 100 → P → EReal) (c2 : P → EReal) (o : P) : EReal :=
  (∑ j : Fin 100, max ((∑ d : Fin 10, f d * w1 d j) + c1 j) 0 * w2 j o) + c2 o

/-- A hop projection: row r of H times the feature matrix X, at feature d. -/
def proj {R : Type} (H : R → Fin 8192 → EReal) (X : Fin 8192 → Fin 10 → EReal) (r : R) (d : Fin 10) : EReal :=
  ∑ m : Fin 8192, H r m * X m d

/-- A node's value at column o: the four branches, on the node's own features and its three hop projections, added
    in branch order. -/
def node {P : Type} (f0 f1 f2 f3 : Fin 10 → EReal) (W1 : Fin 4 → Fin 10 → Fin 100 → EReal) (B1 : Fin 4 → Fin 100 → EReal)
    (W2 : Fin 4 → Fin 100 → P → EReal) (B2 : Fin 4 → P → EReal) (o : P) : EReal :=
  branch f0 (W1 0) (B1 0) (W2 0) (B2 0) o + branch f1 (W1 1) (B1 1) (W2 1) (B2 1) o
    + branch f2 (W1 2) (B1 2) (W2 2) (B2 2) o + branch f3 (W1 3) (B1 3) (W2 3) (B2 3) o

/-- The sum of v over the nodes whose segment id is b. -/
def segSum (seg : Fin 8192 → Int) (v : Fin 8192 → EReal) (b : Fin 256) : EReal :=
  ∑ n ∈ Finset.univ.filter (fun n : Fin 8192 => seg n = (b.val : Int)), v n

/-- The pooled output at segment b, column o. -/
def pooled (X : Fin 8192 → Fin 10 → EReal) (H1 H2 H3 : Fin 8192 → Fin 8192 → EReal) (seg : Fin 8192 → Int)
    (W1 : Fin 4 → Fin 10 → Fin 100 → EReal) (B1 : Fin 4 → Fin 100 → EReal)
    (W2 : Fin 4 → Fin 100 → Fin 100 → EReal) (B2 : Fin 4 → Fin 100 → EReal) (b : Fin 256) (o : Fin 100) : EReal :=
  segSum seg (fun n => node (X n) (proj H1 X n) (proj H2 X n) (proj H3 X n) W1 B1 W2 B2 o) b

/-- A segment sum as a sum over all nodes of the value where the id matches and 0 elsewhere. -/
theorem segSum_eq_sum_ite (seg : Fin 8192 → Int) (v : Fin 8192 → EReal) (b : Fin 256) :
    segSum seg v b = ∑ n : Fin 8192, if seg n = (b.val : Int) then v n else 0 := by
  unfold segSum
  rw [Finset.sum_filter]

/-- Two value families that agree node by node have the same segment sums. -/
theorem segSum_congr (seg : Fin 8192 → Int) {v v' : Fin 8192 → EReal} (h : ∀ n, v n = v' n) (b : Fin 256) :
    segSum seg v b = segSum seg v' b := by
  unfold segSum
  exact Finset.sum_congr rfl fun n _ => h n

end Cert.Pool

end
-- ==== Proof.BodyValue.lean ====
/-
  The body's stored value read at an index, at the ideal instance.
-/
import proofs.«409326_j70961449664573_3_alg».proof.Proof.BodyTerm
import proofs.«409326_j70961449664573_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## A matrix product into a zero accumulator, read at an index -/

/-- For dimension numbers that contract the left operand's columns with the right operand's rows (the four axis
    readings hl0, hl1, hr0, hr1 say so), the product into the zero accumulator at (i, j) is the sum over the
    contracted coordinate k of left (i, k) times right (k, j). -/
private theorem matmul_rows_cols {M K N : Nat} {φ₁ φ₂ : FTy}
    (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (i : Fin M) (j : Fin N) :
    FloatOps.matmul D prec l r (constant ⟨2, ![M, N]⟩ .f32 0x00000000#32) (ix2 i j)
      = ∑ k : Fin K, l (ix2 i k) * r (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 i j) ((contrEquiv1 D K hr hs).symm k) = ix2 i k := funext fun a => Fin.ext (by
    match a with
    | ⟨0, _⟩ => exact hl0 _ _
    | ⟨1, _⟩ => exact (hl1 _ _).trans hk)
  have er : D.rhsIdx (ix2 i j) ((contrEquiv1 D K hr hs).symm k) = ix2 k j := funext fun a => Fin.ext (by
    match a with
    | ⟨0, _⟩ => exact (hr0 _ _).trans hk
    | ⟨1, _⟩ => exact hr1 _ _)
  rw [el, er]

/-- The hop projection's product, [128, 8192] by [8192, 10]. -/
private theorem matmul_hop {φ₁ φ₂ : FTy} (prec : Option ContractPrecision) (l : FVec Ideal S128x8192 φ₁)
    (r : FVec Ideal S8192x10 φ₂) (i : Fin 128) (j : Fin 10) :
    FloatOps.matmul dot_S128x8192_S8192x10_S128x10_1_0_0_1_n_n prec l r (constant S128x10 .f32 0x00000000#32) (ix2 i j)
      = ∑ k : Fin 8192, l (ix2 i k) * r (ix2 k j) :=
  matmul_rows_cols dot_S128x8192_S8192x10_S128x10_1_0_0_1_n_n rfl rfl
    (fun i q => by
      unfold DotDims.lhsIdx
      rw [dif_neg (show ¬(0 : Fin S128x8192.rank) ∈ dot_S128x8192_S8192x10_S128x10_1_0_0_1_n_n.lhsBatch by decide),
        dif_pos (show (0 : Fin S128x8192.rank) ∈ dot_S128x8192_S8192x10_S128x10_1_0_0_1_n_n.lhsNonContracting by decide)]
      rfl)
    (fun i q => dot_S128x8192_S8192x10_S128x10_1_0_0_1_n_n.lhsIdx_val_of_single rfl i q)
    (fun i q => dot_S128x8192_S8192x10_S128x10_1_0_0_1_n_n.rhsIdx_val_of_single rfl i q)
    (fun i q => by
      unfold DotDims.rhsIdx
      rw [dif_neg (show ¬(1 : Fin S8192x10.rank) ∈ dot_S128x8192_S8192x10_S128x10_1_0_0_1_n_n.rhsBatch by decide),
        dif_pos (show (1 : Fin S8192x10.rank) ∈ dot_S128x8192_S8192x10_S128x10_1_0_0_1_n_n.rhsNonContracting by decide)]
      rfl)
    prec l r i j

/-- A branch's first layer, [128, 10] by [10, 100]. -/
private theorem matmul_hid {φ₁ φ₂ : FTy} (prec : Option ContractPrecision) (l : FVec Ideal S128x10 φ₁)
    (r : FVec Ideal S10x100 φ₂) (i : Fin 128) (j : Fin 100) :
    FloatOps.matmul dot_S128x10_S10x100_S128x100_1_0_0_1_n_n prec l r (constant S128x100 .f32 0x00000000#32) (ix2 i j)
      = ∑ k : Fin 10, l (ix2 i k) * r (ix2 k j) :=
  matmul_rows_cols dot_S128x10_S10x100_S128x100_1_0_0_1_n_n rfl rfl
    (fun i q => by
      unfold DotDims.lhsIdx
      rw [dif_neg (show ¬(0 : Fin S128x10.rank) ∈ dot_S128x10_S10x100_S128x100_1_0_0_1_n_n.lhsBatch by decide),
        dif_pos (show (0 : Fin S128x10.rank) ∈ dot_S128x10_S10x100_S128x100_1_0_0_1_n_n.lhsNonContracting by decide)]
      rfl)
    (fun i q => dot_S128x10_S10x100_S128x100_1_0_0_1_n_n.lhsIdx_val_of_single rfl i q)
    (fun i q => dot_S128x10_S10x100_S128x100_1_0_0_1_n_n.rhsIdx_val_of_single rfl i q)
    (fun i q => by
      unfold DotDims.rhsIdx
      rw [dif_neg (show ¬(1 : Fin S10x100.rank) ∈ dot_S128x10_S10x100_S128x100_1_0_0_1_n_n.rhsBatch by decide),
        dif_pos (show (1 : Fin S10x100.rank) ∈ dot_S128x10_S10x100_S128x100_1_0_0_1_n_n.rhsNonContracting by decide)]
      rfl)
    prec l r i j

/-- A branch's second layer, [128, 100] by [100, 128]. -/
private theorem matmul_out {φ₁ φ₂ : FTy} (prec : Option ContractPrecision) (l : FVec Ideal S128x100 φ₁)
    (r : FVec Ideal S100x128 φ₂) (i : Fin 128) (j : Fin 128) :
    FloatOps.matmul dot_S128x100_S100x128_S128x128_1_0_0_1_n_n prec l r (constant S128x128 .f32 0x00000000#32) (ix2 i j)
      = ∑ k : Fin 100, l (ix2 i k) * r (ix2 k j) :=
  matmul_rows_cols dot_S128x100_S100x128_S128x128_1_0_0_1_n_n rfl rfl
    (fun i q => by
      unfold DotDims.lhsIdx
      rw [dif_neg (show ¬(0 : Fin S128x100.rank) ∈ dot_S128x100_S100x128_S128x128_1_0_0_1_n_n.lhsBatch by decide),
        dif_pos (show (0 : Fin S128x100.rank) ∈ dot_S128x100_S100x128_S128x128_1_0_0_1_n_n.lhsNonContracting by decide)]
      rfl)
    (fun i q => dot_S128x100_S100x128_S128x128_1_0_0_1_n_n.lhsIdx_val_of_single rfl i q)
    (fun i q => dot_S128x100_S100x128_S128x128_1_0_0_1_n_n.rhsIdx_val_of_single rfl i q)
    (fun i q => by
      unfold DotDims.rhsIdx
      rw [dif_neg (show ¬(1 : Fin S100x128.rank) ∈ dot_S128x100_S100x128_S128x128_1_0_0_1_n_n.rhsBatch by decide),
        dif_pos (show (1 : Fin S100x128.rank) ∈ dot_S128x100_S100x128_S128x128_1_0_0_1_n_n.rhsNonContracting by decide)]
      rfl)
    prec l r i j

/-- The pooling product, [256, 128] by [128, 128]. -/
private theorem matmul_pool {φ₁ φ₂ : FTy} (prec : Option ContractPrecision) (l : FVec Ideal S256x128 φ₁)
    (r : FVec Ideal S128x128 φ₂) (i : Fin 256) (j : Fin 128) :
    FloatOps.matmul dot_S256x128_S128x128_S256x128_1_0_0_1_n_n prec l r (constant S256x128 .f32 0x00000000#32) (ix2 i j)
      = ∑ k : Fin 128, l (ix2 i k) * r (ix2 k j) :=
  matmul_rows_cols dot_S256x128_S128x128_S256x128_1_0_0_1_n_n rfl rfl
    (fun i q => by
      unfold DotDims.lhsIdx
      rw [dif_neg (show ¬(0 : Fin S256x128.rank) ∈ dot_S256x128_S128x128_S256x128_1_0_0_1_n_n.lhsBatch by decide),
        dif_pos (show (0 : Fin S256x128.rank) ∈ dot_S256x128_S128x128_S256x128_1_0_0_1_n_n.lhsNonContracting by decide)]
      rfl)
    (fun i q => dot_S256x128_S128x128_S256x128_1_0_0_1_n_n.lhsIdx_val_of_single rfl i q)
    (fun i q => dot_S256x128_S128x128_S256x128_1_0_0_1_n_n.rhsIdx_val_of_single rfl i q)
    (fun i q => by
      unfold DotDims.rhsIdx
      rw [dif_neg (show ¬(1 : Fin S128x128.rank) ∈ dot_S256x128_S128x128_S256x128_1_0_0_1_n_n.rhsBatch by decide),
        dif_pos (show (1 : Fin S128x128.rank) ∈ dot_S256x128_S128x128_S256x128_1_0_0_1_n_n.rhsNonContracting by decide)]
      rfl)
    prec l r i j

/-! ## Weight slices and bias rows at an index -/

/-- Slice k of a stack of four matrices, its unit axis dropped, is the stack at (k, ·, ·). -/
private theorem stack3_slice {a b : Nat} {α : Type} (o : Nat) (k : Fin 4) (hk : k.val = o)
    (w : (⟨3, ![4, a, b]⟩ : Shape).Idx → α)
    (hs : (⟨3, ![4, a, b]⟩ : Shape).Slices ![o, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![o, 0, 0] w hs) hc (ix2 i j) = w (ix3 k i j) :=
  (shapeCast_1ab_ab_apply _ hc i j).trans
    (extractStridedSlice_apply _ w hs _ (ix3 k i j) fun ax => by
      match ax with
      | ⟨0, _⟩ => exact hk
      | ⟨1, _⟩ => exact (Nat.zero_add _).symm
      | ⟨2, _⟩ => exact (Nat.zero_add _).symm)

/-- Slice k of a stack of four rows, its unit axis dropped, is the stack at (k, ·). -/
private theorem stack2_slice {a : Nat} {α : Type} (o : Nat) (k : Fin 4) (hk : k.val = o)
    (c : (⟨2, ![4, a]⟩ : Shape).Idx → α)
    (hs : (⟨2, ![4, a]⟩ : Shape).Slices ![o, 0] ⟨2, ![1, a]⟩)
    (hc : (⟨2, ![1, a]⟩ : Shape).ShapeCasts ⟨1, ![a]⟩) (i : Fin a) :
    shapeCast ⟨1, ![a]⟩ (extractStridedSlice ⟨2, ![1, a]⟩ ![o, 0] c hs) hc (ix1 i) = c (ix2 k i) :=
  (shapeCast_1a_a_apply _ hc i).trans (slice2_axis0_apply o c hs (0 : Fin 1) i k hk)

/-- A row given a unit axis and broadcast over many rows reads the row's entry in every row. -/
private theorem bias_row {a b : Nat} {α : Type} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (j : Fin b) :
    broadcastTo ⟨2, ![a, b]⟩ (shapeCast ⟨2, ![1, b]⟩ v hc) hb (ix2 p j) = v (ix1 j) :=
  (broadcastTo_1b_ab_apply _ hb p j).trans (shapeCast_a_1a_apply v hc 0 j)

/-! ## The one-hot entry -/

/-- The comparison bit of two words, widened to 32 bits and read as a signed integer, is 1 where the words are
    equal and 0 elsewhere. -/
private theorem onehot_word (x y : BitVec 32) :
    FloatOps.sitofp (F := Ideal) .f32 ((IntOp.cmpi .eq x y).setWidth 32) = if x = y then (1 : EReal) else 0 := by
  show (((((IntOp.cmpi .eq x y).setWidth 32).toInt : ℝ)) : EReal) = _
  by_cases h : x = y
  · subst h
    have h1 : IntOp.cmpi .eq x x = 1#1 := by simp [IntOp.cmpi]
    have h2 : ((1#1 : BitVec 1).setWidth 32).toInt = 1 := by decide
    rw [h1, if_pos rfl, h2]; simp
  · have h1 : IntOp.cmpi .eq x y = 0#1 := by
      show BitVec.ofBool (x == y) = 0#1
      rw [beq_eq_false_iff_ne.mpr h]; rfl
    have h2 : ((0#1 : BitVec 1).setWidth 32).toInt = 0 := by decide
    rw [h1, if_neg h, h2]; simp

/-- The one-hot matrix of the block's segment ids as the printed operations compose it. -/
private def onehot (ids : Vec Ideal S128 .i32) : FVec Ideal S256x128 .f32 :=
  sitofp .f32 (extui 32 (cmpi .eq (iota .tc S256x128 32 [0] iota_S256x128_d0_w32)
    (broadcastTo S256x128 (shapeCast S1x128 ids shapeCasts_S128_S1x128) broadcasts_S1x128_S256x128)) natLt_1_32)

/-- Its entry at (b, r) is 1 where row r's segment id is the word of b, else 0. -/
private theorem onehot_apply (ids : Vec Ideal S128 .i32) (b : Fin 256) (r : Fin 128) :
    onehot ids (ix2 b r) = if BitVec.ofNat 32 b.val = ids (ix1 r) then (1 : EReal) else 0 := by
  have e1 : iota .tc S256x128 32 [0] iota_S256x128_d0_w32 (ix2 b r) = BitVec.ofNat 32 b.val :=
    iota_single_apply .tc S256x128 32 0 iota_S256x128_d0_w32 (ix2 b r)
  have e2 : broadcastTo S256x128 (shapeCast S1x128 ids shapeCasts_S128_S1x128) broadcasts_S1x128_S256x128 (ix2 b r)
      = ids (ix1 r) := bias_row ids shapeCasts_S128_S1x128 broadcasts_S1x128_S256x128 b r
  show FloatOps.sitofp (F := Ideal) .f32 ((IntOp.cmpi .eq
      (iota .tc S256x128 32 [0] iota_S256x128_d0_w32 (ix2 b r))
      (broadcastTo S256x128 (shapeCast S1x128 ids shapeCasts_S128_S1x128) broadcasts_S1x128_S256x128 (ix2 b r))).setWidth 32) = _
  rw [e1, e2]
  exact onehot_word _ _

/-! ## One branch -/

/-- One branch's block of values as the printed operations compose it: the first layer's product plus its bias row,
    the maximum with zero, the second layer's product plus its bias row. -/
private def mlp (inp : FVec Ideal S128x10 .bf16) (W1s : FVec Ideal S10x100 .bf16) (B1 : FVec Ideal S100 .f32)
    (W2s : FVec Ideal S100x128 .bf16) (B2 : FVec Ideal S128 .f32) : FVec Ideal S128x128 .f32 :=
  addf (matmul dot_S128x100_S100x128_S128x128_1_0_0_1_n_n none
      (truncf .bf16 (maximumf
        (addf (matmul dot_S128x10_S10x100_S128x100_1_0_0_1_n_n none inp W1s (constant S128x100 .f32 0x00000000#32))
          (broadcastTo S128x100 (shapeCast S1x100 B1 shapeCasts_S100_S1x100) broadcasts_S1x100_S128x100))
        (broadcast S128x100 (Scalar.ofBits .f32 0x00000000#32))) bitsLt_bf16_f32)
      W2s (constant S128x128 .f32 0x00000000#32))
    (broadcastTo S128x128 (shapeCast S1x128 B2 shapeCasts_S128_S1x128) broadcasts_S1x128_S128x128)

/-- Read at (r, o) it is the two-layer perceptron of row r of the input, at output column o. -/
private theorem mlp_apply (inp : FVec Ideal S128x10 .bf16) (W1s : FVec Ideal S10x100 .bf16) (B1 : FVec Ideal S100 .f32)
    (W2s : FVec Ideal S100x128 .bf16) (B2 : FVec Ideal S128 .f32) (r : Fin 128) (o : Fin 128) :
    mlp inp W1s B1 W2s B2 (ix2 r o)
      = Cert.Pool.branch (fun d => inp (ix2 r d)) (fun d j => W1s (ix2 d j)) (fun j => B1 (ix1 j))
          (fun j o => W2s (ix2 j o)) (fun o => B2 (ix1 o)) o := by
  unfold mlp Cert.Pool.branch
  refine (addf_apply _ _ _).trans ?_
  refine congrArg₂ (· + ·) ?_ (bias_row B2 shapeCasts_S128_S1x128 broadcasts_S1x128_S128x128 r o)
  refine (matmul_out none _ W2s r o).trans (Finset.sum_congr rfl fun j _ => ?_)
  refine congrArg (· * W2s (ix2 j o)) ?_
  show max (FloatOps.matmul dot_S128x10_S10x100_S128x100_1_0_0_1_n_n none inp W1s (constant S128x100 .f32 0x00000000#32) (ix2 r j)
      + broadcastTo S128x100 (shapeCast S1x100 B1 shapeCasts_S100_S1x100) broadcasts_S1x100_S128x100 (ix2 r j))
      (Ideal.ofBits .f32 0x00000000#32) = _
  rw [Ideal.ofBits_zero_f32, matmul_hid none inp W1s r j, bias_row B1 shapeCasts_S100_S1x100 broadcasts_S1x100_S128x100 r j]

/-! ## The block's node values -/

/-- Hop projection 1 of the block at (r, d) is row r of the hop rows times the feature matrix, at feature d. -/
private theorem hop1_apply (x0 : Vec Ideal S8192x10 .f32) (h : Vec Ideal S128x8192 .f32) (r : Fin 128) (d : Fin 10) :
    k0_pay4 x0 h (ix2 r d) = Cert.Pool.proj (fun r m => h (ix2 r m)) (fun m d => x0 (ix2 m d)) r d := by
  unfold k0_pay4 k0_pay3 Cert.Pool.proj
  exact matmul_hop none _ _ r d

/-- Hop projection 2 of the block at (r, d) is row r of the hop rows times the feature matrix, at feature d. -/
private theorem hop2_apply (x0 : Vec Ideal S8192x10 .f32) (h : Vec Ideal S128x8192 .f32) (r : Fin 128) (d : Fin 10) :
    k0_pay5 x0 h (ix2 r d) = Cert.Pool.proj (fun r m => h (ix2 r m)) (fun m d => x0 (ix2 m d)) r d := by
  unfold k0_pay5 k0_pay3 Cert.Pool.proj
  exact matmul_hop none _ _ r d

/-- Hop projection 3 of the block at (r, d) is row r of the hop rows times the feature matrix, at feature d. -/
private theorem hop3_apply (x0 : Vec Ideal S8192x10 .f32) (h : Vec Ideal S128x8192 .f32) (r : Fin 128) (d : Fin 10) :
    k0_pay6 x0 h (ix2 r d) = Cert.Pool.proj (fun r m => h (ix2 r m)) (fun m d => x0 (ix2 m d)) r d := by
  unfold k0_pay6 k0_pay3 Cert.Pool.proj
  exact matmul_hop none _ _ r d

/-- Two perceptrons over pointwise equal data have the same value. -/
private theorem branch_congr {P : Type} {f f' : Fin 10 → EReal} {u u' : Fin 10 → Fin 100 → EReal} {a a' : Fin 100 → EReal}
    {v v' : Fin 100 → P → EReal} {e e' : P → EReal} (hf : ∀ d, f d = f' d) (hu : ∀ d j, u d j = u' d j)
    (ha : ∀ j, a j = a' j) (hv : ∀ j o, v j o = v' j o) (he : ∀ o, e o = e' o) (o : P) :
    Cert.Pool.branch f u a v e o = Cert.Pool.branch f' u' a' v' e' o := by
  obtain rfl : f = f' := funext hf
  obtain rfl : u = u' := funext fun d => funext (hu d)
  obtain rfl : a = a' := funext ha
  obtain rfl : v = v' := funext fun j => funext (hv j)
  obtain rfl : e = e' := funext he
  rfl

/-- The block's accumulated values as the printed operations compose them: from zero, the four branches added in
    order, branch 0 on the block's own features and branch k on hop projection k, each with slice k of the weights. -/
private def acc (x0 : Vec Ideal S8192x10 .f32) (xb : Vec Ideal S128x10 .f32)
    (h1 h2 h3 : Vec Ideal S128x8192 .f32) (w1 : Vec Ideal S4x10x100 .f32) (c1 : Vec Ideal S4x100 .f32)
    (w2 : Vec Ideal S4x100x128 .f32) (c2 : Vec Ideal S4x128 .f32) : FVec Ideal S128x128 .f32 :=
  addf (addf (addf (addf (broadcast S128x128 (Scalar.ofBits (F := Ideal) .f32 0x00000000#32))
    (mlp (truncf .bf16 xb bitsLt_bf16_f32)
      (truncf .bf16 (shapeCast S10x100 (extractStridedSlice S1x10x100 ![0, 0, 0] w1 slices_S4x10x100_o0_0_0_S1x10x100) shapeCasts_S1x10x100_S10x100) bitsLt_bf16_f32)
      (shapeCast S100 (extractStridedSlice S1x100 ![0, 0] c1 slices_S4x100_o0_0_S1x100) shapeCasts_S1x100_S100)
      (truncf .bf16 (shapeCast S100x128 (extractStridedSlice S1x100x128 ![0, 0, 0] (k0_pay7 w2) slices_S4x100x128_o0_0_0_S1x100x128) shapeCasts_S1x100x128_S100x128) bitsLt_bf16_f32)
      (shapeCast S128 (extractStridedSlice S1x128 ![0, 0] (k0_pay8 c2) slices_S4x128_o0_0_S1x128) shapeCasts_S1x128_S128)))
    (mlp (truncf .bf16 (k0_pay4 x0 h1) bitsLt_bf16_f32)
      (truncf .bf16 (shapeCast S10x100 (extractStridedSlice S1x10x100 ![1, 0, 0] w1 slices_S4x10x100_o1_0_0_S1x10x100) shapeCasts_S1x10x100_S10x100) bitsLt_bf16_f32)
      (shapeCast S100 (extractStridedSlice S1x100 ![1, 0] c1 slices_S4x100_o1_0_S1x100) shapeCasts_S1x100_S100)
      (truncf .bf16 (shapeCast S100x128 (extractStridedSlice S1x100x128 ![1, 0, 0] (k0_pay7 w2) slices_S4x100x128_o1_0_0_S1x100x128) shapeCasts_S1x100x128_S100x128) bitsLt_bf16_f32)
      (shapeCast S128 (extractStridedSlice S1x128 ![1, 0] (k0_pay8 c2) slices_S4x128_o1_0_S1x128) shapeCasts_S1x128_S128)))
    (mlp (truncf .bf16 (k0_pay5 x0 h2) bitsLt_bf16_f32)
      (truncf .bf16 (shapeCast S10x100 (extractStridedSlice S1x10x100 ![2, 0, 0] w1 slices_S4x10x100_o2_0_0_S1x10x100) shapeCasts_S1x10x100_S10x100) bitsLt_bf16_f32)
      (shapeCast S100 (extractStridedSlice S1x100 ![2, 0] c1 slices_S4x100_o2_0_S1x100) shapeCasts_S1x100_S100)
      (truncf .bf16 (shapeCast S100x128 (extractStridedSlice S1x100x128 ![2, 0, 0] (k0_pay7 w2) slices_S4x100x128_o2_0_0_S1x100x128) shapeCasts_S1x100x128_S100x128) bitsLt_bf16_f32)
      (shapeCast S128 (extractStridedSlice S1x128 ![2, 0] (k0_pay8 c2) slices_S4x128_o2_0_S1x128) shapeCasts_S1x128_S128)))
    (mlp (truncf .bf16 (k0_pay6 x0 h3) bitsLt_bf16_f32)
      (truncf .bf16 (shapeCast S10x100 (extractStridedSlice S1x10x100 ![3, 0, 0] w1 slices_S4x10x100_o3_0_0_S1x10x100) shapeCasts_S1x10x100_S10x100) bitsLt_bf16_f32)
      (shapeCast S100 (extractStridedSlice S1x100 ![3, 0] c1 slices_S4x100_o3_0_S1x100) shapeCasts_S1x100_S100)
      (truncf .bf16 (shapeCast S100x128 (extractStridedSlice S1x100x128 ![3, 0, 0] (k0_pay7 w2) slices_S4x100x128_o3_0_0_S1x100x128) shapeCasts_S1x100x128_S100x128) bitsLt_bf16_f32)
      (shapeCast S128 (extractStridedSlice S1x128 ![3, 0] (k0_pay8 c2) slices_S4x128_o3_0_S1x128) shapeCasts_S1x128_S128))

/-- Read at (r, o) they are the node value of row r at column o. -/
private theorem acc_apply (x0 : Vec Ideal S8192x10 .f32) (xb : Vec Ideal S128x10 .f32)
    (h1 h2 h3 : Vec Ideal S128x8192 .f32) (w1 : Vec Ideal S4x10x100 .f32) (c1 : Vec Ideal S4x100 .f32)
    (w2 : Vec Ideal S4x100x128 .f32) (c2 : Vec Ideal S4x128 .f32) (r o : Fin 128) :
    acc x0 xb h1 h2 h3 w1 c1 w2 c2 (ix2 r o)
      = Cert.Pool.node (fun d => xb (ix2 r d))
          (Cert.Pool.proj (fun r m => h1 (ix2 r m)) (fun m d => x0 (ix2 m d)) r)
          (Cert.Pool.proj (fun r m => h2 (ix2 r m)) (fun m d => x0 (ix2 m d)) r)
          (Cert.Pool.proj (fun r m => h3 (ix2 r m)) (fun m d => x0 (ix2 m d)) r)
          (fun k d j => w1 (ix3 k d j)) (fun k j => c1 (ix2 k j))
          (fun k j o => w2 (ix3 k j o)) (fun k o => c2 (ix2 k o)) o := by
  have e7 : k0_pay7 w2 = w2 := shapeCast_self w2 _
  have e8 : k0_pay8 c2 = c2 := shapeCast_self c2 _
  unfold acc Cert.Pool.node
  rw [e7, e8]
  refine (addf_apply _ _ _).trans (congrArg₂ (· + ·) ((addf_apply _ _ _).trans (congrArg₂ (· + ·)
    ((addf_apply _ _ _).trans (congrArg₂ (· + ·) ((addf_apply _ _ _).trans ?_) ?_)) ?_)) ?_)
  · show Ideal.ofBits .f32 0x00000000#32 + _ = _
    rw [Ideal.ofBits_zero_f32, zero_add]
    exact ((mlp_apply _ _ _ _ _ r o).trans (branch_congr
      (fun d => rfl)
      (fun d j => stack3_slice 0 (0 : Fin 4) rfl w1 slices_S4x10x100_o0_0_0_S1x10x100 shapeCasts_S1x10x100_S10x100 d j)
      (fun j => stack2_slice 0 (0 : Fin 4) rfl c1 slices_S4x100_o0_0_S1x100 shapeCasts_S1x100_S100 j)
      (fun j o => stack3_slice 0 (0 : Fin 4) rfl w2 slices_S4x100x128_o0_0_0_S1x100x128 shapeCasts_S1x100x128_S100x128 j o)
      (fun o => stack2_slice 0 (0 : Fin 4) rfl c2 slices_S4x128_o0_0_S1x128 shapeCasts_S1x128_S128 o) o))
  · exact ((mlp_apply _ _ _ _ _ r o).trans (branch_congr
      (fun d => hop1_apply x0 h1 r d)
      (fun d j => stack3_slice 1 (1 : Fin 4) rfl w1 slices_S4x10x100_o1_0_0_S1x10x100 shapeCasts_S1x10x100_S10x100 d j)
      (fun j => stack2_slice 1 (1 : Fin 4) rfl c1 slices_S4x100_o1_0_S1x100 shapeCasts_S1x100_S100 j)
      (fun j o => stack3_slice 1 (1 : Fin 4) rfl w2 slices_S4x100x128_o1_0_0_S1x100x128 shapeCasts_S1x100x128_S100x128 j o)
      (fun o => stack2_slice 1 (1 : Fin 4) rfl c2 slices_S4x128_o1_0_S1x128 shapeCasts_S1x128_S128 o) o))
  · exact ((mlp_apply _ _ _ _ _ r o).trans (branch_congr
      (fun d => hop2_apply x0 h2 r d)
      (fun d j => stack3_slice 2 (2 : Fin 4) rfl w1 slices_S4x10x100_o2_0_0_S1x10x100 shapeCasts_S1x10x100_S10x100 d j)
      (fun j => stack2_slice 2 (2 : Fin 4) rfl c1 slices_S4x100_o2_0_S1x100 shapeCasts_S1x100_S100 j)
      (fun j o => stack3_slice 2 (2 : Fin 4) rfl w2 slices_S4x100x128_o2_0_0_S1x100x128 shapeCasts_S1x100x128_S100x128 j o)
      (fun o => stack2_slice 2 (2 : Fin 4) rfl c2 slices_S4x128_o2_0_S1x128 shapeCasts_S1x128_S128 o) o))
  · exact ((mlp_apply _ _ _ _ _ r o).trans (branch_congr
      (fun d => hop3_apply x0 h3 r d)
      (fun d j => stack3_slice 3 (3 : Fin 4) rfl w1 slices_S4x10x100_o3_0_0_S1x10x100 shapeCasts_S1x10x100_S10x100 d j)
      (fun j => stack2_slice 3 (3 : Fin 4) rfl c1 slices_S4x100_o3_0_S1x100 shapeCasts_S1x100_S100 j)
      (fun j o => stack3_slice 3 (3 : Fin 4) rfl w2 slices_S4x100x128_o3_0_0_S1x100x128 shapeCasts_S1x100x128_S100x128 j o)
      (fun o => stack2_slice 3 (3 : Fin 4) rfl c2 slices_S4x128_o3_0_S1x128 shapeCasts_S1x128_S128 o) o))

/-! ## The stored value -/

/-- The stored value is the accumulator's contents plus the one-hot matrix times the block's node values. -/
private theorem blockOut_eq (x0 : Vec Ideal S8192x10 .f32) (xb : Vec Ideal S128x10 .f32)
    (h1 h2 h3 : Vec Ideal S128x8192 .f32) (w1 : Vec Ideal S4x10x100 .f32) (c1 : Vec Ideal S4x100 .f32)
    (w2 : Vec Ideal S4x100x128 .f32) (c2 : Vec Ideal S4x128 .f32) (i1 : Vec Ideal S128 .i32) (prev : Vec Ideal S256x128 .f32) :
    blockOut (F := Ideal) x0 xb i1 h1 h2 h3 w1 c1 w2 c2 prev
      = addf prev (matmul dot_S256x128_S128x128_S256x128_1_0_0_1_n_n (some .fp32) (onehot i1)
          (acc x0 xb h1 h2 h3 w1 c1 w2 c2) (constant S256x128 .f32 0x00000000#32)) := by
  refine Eq.trans ?_ (shapeCast_self _ shapeCasts_S256x128_S256x128)
  rfl

/-- At the ideal instance the stored value at (b, o) is what the accumulator held there plus, over the block's 128
    rows r, the node value of row r at column o where row r's segment id is b. -/
theorem blockOut_apply (x0 : Vec Ideal S8192x10 .f32) (xb : Vec Ideal S128x10 .f32) (i1 : Vec Ideal S128 .i32)
    (h1 h2 h3 : Vec Ideal S128x8192 .f32) (w1 : Vec Ideal S4x10x100 .f32) (c1 : Vec Ideal S4x100 .f32)
    (w2 : Vec Ideal S4x100x128 .f32) (c2 : Vec Ideal S4x128 .f32) (prev : Vec Ideal S256x128 .f32)
    (b : Fin 256) (o : Fin 128) :
    blockOut (F := Ideal) x0 xb i1 h1 h2 h3 w1 c1 w2 c2 prev (ix2 b o)
      = prev (ix2 b o) + ∑ r : Fin 128, (if BitVec.ofNat 32 b.val = i1 (ix1 r) then (1 : EReal) else 0) *
          Cert.Pool.node (fun d => xb (ix2 r d))
            (Cert.Pool.proj (fun r m => h1 (ix2 r m)) (fun m d => x0 (ix2 m d)) r)
            (Cert.Pool.proj (fun r m => h2 (ix2 r m)) (fun m d => x0 (ix2 m d)) r)
            (Cert.Pool.proj (fun r m => h3 (ix2 r m)) (fun m d => x0 (ix2 m d)) r)
            (fun k d j => w1 (ix3 k d j)) (fun k j => c1 (ix2 k j))
            (fun k j o => w2 (ix3 k j o)) (fun k o => c2 (ix2 k o)) o := by
  rw [blockOut_eq]
  refine (addf_apply _ _ _).trans (congrArg (prev (ix2 b o) + ·) ?_)
  refine (matmul_pool (some .fp32) (onehot i1) (acc x0 xb h1 h2 h3 w1 c1 w2 c2) b o).trans
    (Finset.sum_congr rfl fun r _ => ?_)
  rw [onehot_apply, acc_apply]

end Cert.KernelIdeal.Body

end
-- ==== Proof.KernelSpec.lean ====
/-
  The kernel's program at the ideal instance: the names of what it reads and of what it is shown to compute.

  The argument arrays are read coordinate by coordinate; the last layer's weights and biases also in the 128-column
  padded form the region finds.  A node's padded value, a grid point's contribution to the accumulator (the one-hot
  weighted sum over the point's 128 rows), and the array the two outer coordinates' accumulators are written to.
-/
import proofs.«409326_j70961449664573_3_alg».proof.Proof.Gen.KernelIdeal.Frame
import proofs.«409326_j70961449664573_3_alg».proof.Proof.Spec
import Idealize.ShloMosaic.Lib.ValueIdx

noncomputable section

namespace Cert.KernelIdeal.Body

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The node features, the three hop matrices, the segment id words and the weights, as launched. -/
def aX (c : Dev nD) (n : Fin 8192) (d : Fin 10) : EReal := m ((c : Thread nD τ).loc main_arg0) (ix2 n d)
def aH1 (c : Dev nD) (n k : Fin 8192) : EReal := m ((c : Thread nD τ).loc main_arg1) (ix2 n k)
def aH2 (c : Dev nD) (n k : Fin 8192) : EReal := m ((c : Thread nD τ).loc main_arg2) (ix2 n k)
def aH3 (c : Dev nD) (n k : Fin 8192) : EReal := m ((c : Thread nD τ).loc main_arg3) (ix2 n k)
def aI (c : Dev nD) (n : Fin 8192) : BitVec 32 := m ((c : Thread nD τ).loc main_arg4) (ix1 n)
def aW1 (c : Dev nD) (k : Fin 4) (d : Fin 10) (j : Fin 100) : EReal := m ((c : Thread nD τ).loc main_arg5) (ix3 k d j)
def aC1 (c : Dev nD) (k : Fin 4) (j : Fin 100) : EReal := m ((c : Thread nD τ).loc main_arg6) (ix2 k j)
def aW2 (c : Dev nD) (k : Fin 4) (j : Fin 100) (o : Fin 100) : EReal := m ((c : Thread nD τ).loc main_arg7) (ix3 k j o)
def aC2 (c : Dev nD) (k : Fin 4) (o : Fin 100) : EReal := m ((c : Thread nD τ).loc main_arg8) (ix2 k o)

/-- The last layer's weights and biases padded to 128 columns, as the region finds them. -/
def pW2 (c : Dev nD) (k : Fin 4) (j : Fin 100) (o : Fin 128) : EReal := V m c main_v0 (ix3 k j o)
def pC2 (c : Dev nD) (k : Fin 4) (o : Fin 128) : EReal := V m c main_v1 (ix2 k o)

/-- Node n's value at column o of the padded last layer. -/
def nodeP (c : Dev nD) (n : Fin 8192) (o : Fin 128) : EReal :=
  Cert.Pool.node (aX m c n) (Cert.Pool.proj (aH1 m c) (aX m c) n) (Cert.Pool.proj (aH2 m c) (aX m c) n)
    (Cert.Pool.proj (aH3 m c) (aX m c) n) (aW1 m c) (aC1 m c) (pW2 m c) (pC2 m c) o

/-- Row r of tile n (of 64 tiles of 128 rows). -/
def rowN (n : ℕ) (h : n < 64) (r : Fin 128) : Fin 8192 := ⟨128 * n + r.val, by have := r.isLt; omega⟩

/-- What grid point n adds to the accumulator at (b, o): over its 128 rows, the node value where the row's id word is
    b's word. -/
def contribN (c : Dev nD) (n : ℕ) (b : Fin 256) (o : Fin 128) : EReal :=
  if h : n < 64 then
    ∑ r : Fin 128, (if BitVec.ofNat 32 b.val = aI m c (rowN n h r) then (1 : EReal) else 0) * nodeP m c (rowN n h r) o
  else 0

/-- The accumulator of outer coordinate c' after its 32 inner steps, at (b, o): the sum of their contributions. -/
def g9 (c : Dev nD) (c' : Fin 2) (b : Fin 256) (o : Fin 128) : EReal :=
  ∑ j ∈ Finset.range 32, contribN m c (32 * c'.val + j) b o

/-- What the kernel's result array ends holding: the two outer coordinates' accumulators. -/
def G9 (c : Dev nD) : Buf (Elt Ideal) ((c : Thread nD τ).loc main_v2) :=
  fun i => g9 m c ⟨(i 0).val, (i 0).isLt⟩ ⟨(i 1).val, (i 1).isLt⟩ ⟨(i 2).val, (i 2).isLt⟩

theorem G9_apply (c : Dev nD) (c' : Fin 2) (b : Fin 256) (o : Fin 128) : G9 m c (ix3 c' b o) = g9 m c c' b o := rfl

end Cert.KernelIdeal.Body

end
-- ==== Proof.PointValue.lean ====
/-
  The accumulator after each grid point, at the ideal instance: the sum of the contributions since the last restart.

  A point stores what the accumulator held plus its own contribution; at an inner step 0 it held zero.  So after the
  point at inner step s of an outer coordinate the accumulator is the sum of the contributions of inner steps 0 … s,
  and at inner step 31, where the output block receives it, the sum of all 32.
-/
import proofs.«409326_j70961449664573_3_alg».proof.Proof.BlockReads
import proofs.«409326_j70961449664573_3_alg».proof.Proof.BodyValue
import proofs.«409326_j70961449664573_3_alg».proof.Proof.KernelSpec
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-- The block of zeros the accumulator is reset to is zero everywhere. -/
theorem zeros_apply (b : Fin 256) (o : Fin 128) : k0_pay2 (F := Ideal) (ix2 b o) = 0 := by
  unfold k0_pay2
  rw [shapeCast_self]
  show Ideal.ofBits .f32 0x00000000#32 = 0
  exact Ideal.ofBits_zero_f32

/-- What point t stores at (b, o) is what the accumulator held there plus the point's contribution. -/
theorem stepOut_apply (c : Dev nD) (t : Fin cfg0.N) (prev : Vec Ideal S256x128 .f32) (b : Fin 256) (o : Fin 128) :
    stepOut (F := Ideal) m c t prev (ix2 b o) = prev (ix2 b o) + contribN m c t.val b o := by
  have hN : cfg0.N = 64 := N_0
  have ht : t.val < 64 := by have := t.isLt; omega
  unfold stepOut
  refine (blockOut_apply (blkX m c t) (ownRows (grid0.coords t) (blkX m c t)) (blkI m c t) (blkH1 m c t) (blkH2 m c t)
    (blkH3 m c t) (blkW1 m c t) (blkC1 m c t) (blkW2 m c t) (blkC2 m c t) prev b o).trans ?_
  refine congrArg (prev (ix2 b o) + ·) ?_
  unfold contribN
  rw [dif_pos ht]
  refine Finset.sum_congr rfl fun r _ => ?_
  -- each block entry is the array's entry in row 128·t + r; the arrays are as launched
  simp only [rd_own, rd_X, rd_I, rd_H1, rd_H2, rd_H3, rd_W1, rd_C1, rd_W2, rd_C2,
    V_main_arg0, V_main_arg1, V_main_arg2, V_main_arg3, V_main_arg4, V_main_arg5, V_main_arg6]
  rfl

/-- At an inner step 0 the accumulator holds the point's own contribution. -/
theorem acc_first (c : Dev nD) (n : ℕ) (hn : n < cfg0.N) (h0 : n % 32 = 0) (b : Fin 256) (o : Fin 128) :
    accAfter (F := Ideal) m c n hn (ix2 b o)
      = ∑ j ∈ Finset.range (n % 32 + 1), contribN m c (n - n % 32 + j) b o := by
  have h1 : ¬(⟨n, hn⟩ : Fin cfg0.N).val % 32 = 31 := by show ¬n % 32 = 31; omega
  have e := accAfter_first (F := Ideal) m c ⟨n, hn⟩ h0 h1
  rw [show accAfter (F := Ideal) m c n hn = stepOut m c ⟨n, hn⟩ (k0_pay2 (F := Ideal)) from e, stepOut_apply,
    zeros_apply, zero_add, h0, Finset.sum_range_one]
  rfl

/-- After the point at position n the accumulator holds the contributions of the inner steps from the last restart up
    to n. -/
theorem acc_sum (c : Dev nD) : ∀ (n : ℕ) (hn : n < cfg0.N) (b : Fin 256) (o : Fin 128),
    accAfter (F := Ideal) m c n hn (ix2 b o)
      = ∑ j ∈ Finset.range (n % 32 + 1), contribN m c (n - n % 32 + j) b o := by
  intro n
  induction n with
  | zero => intro hn b o; exact acc_first m c 0 hn rfl b o
  | succ n ih =>
    intro hn b o
    by_cases h0 : (n + 1) % 32 = 0
    · exact acc_first m c (n + 1) hn h0 b o
    · have hn' : n < cfg0.N := Nat.lt_of_succ_lt hn
      -- the point continues from what the point before left
      have e : accAfter (F := Ideal) m c (n + 1) hn = stepOut m c ⟨n + 1, hn⟩ (accAfter (F := Ideal) m c n hn') := by
        by_cases h1 : (n + 1) % 32 = 31
        · exact accAfter_last (F := Ideal) m c ⟨n + 1, hn⟩ h0 h1
        · exact accAfter_mid (F := Ideal) m c ⟨n + 1, hn⟩ h0 h1
      have e1 : (n + 1) % 32 = n % 32 + 1 := by omega
      have e2 : n + 1 - (n % 32 + 1) = n - n % 32 := by omega
      have e3 : n - n % 32 + (n % 32 + 1) = n + 1 := by omega
      rw [e, stepOut_apply, ih hn' b o, e1, e2, Finset.sum_range_succ (n := n % 32 + 1), e3]

/-- At inner step 31 of outer coordinate c' the output block holds, at (b, o), the sum of the 32 inner steps'
    contributions. -/
theorem out_flush (c : Dev nD) (c' : Fin 2) (t : Fin cfg0.N) (ht : t.val = 32 * c'.val + 31) (b : Fin 256) (o : Fin 128) :
    outAfter (F := Ideal) m c t.val t.isLt (ix3 (0 : Fin 1) b o) = g9 m c c' b o := by
  have h0 : ¬t.val % 32 = 0 := by omega
  have h1 : t.val % 32 = 31 := by omega
  -- the output block is the updated accumulator with a leading unit axis
  have e : outAfter (F := Ideal) m c t.val t.isLt = k0_pay1 (accAfter (F := Ideal) m c t.val t.isLt) := by
    rw [outAfter_last (F := Ideal) m c t h0 h1, accAfter_last (F := Ideal) m c t h0 h1]
  rw [e]
  unfold k0_pay1
  refine (shapeCast_addUnit_apply ![256, 128] _ _ (ix3 (0 : Fin 1) b o)).trans ?_
  have ei : (fun a : Fin 2 => (ix3 (0 : Fin 1) b o : (⟨3, ![1, 256, 128]⟩ : Shape).Idx) a.succ) = ix2 b o :=
    funext fun a => by match a with | ⟨0, _⟩ => rfl | ⟨1, _⟩ => rfl
  rw [ei, acc_sum m c t.val t.isLt b o, h1]
  unfold g9
  have e4 : t.val - 31 = 32 * c'.val := by omega
  rw [e4]

end Cert.KernelIdeal.Body

end
-- ==== Proof.KernelArr.lean ====
/-
  The kernel's result array after the run: each outer coordinate's slab is its accumulator after its last inner step.
-/
import proofs.«409326_j70961449664573_3_alg».proof.Proof.PointValue

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-- The result window's index map over the grid: a point's block is the slab of its outer coordinate. -/
private theorem idx_out : ∀ t : Fin cfg0.N,
    win0_9.index t (0 : Fin 3) = t.val / 32 ∧ win0_9.index t (1 : Fin 3) = 0 ∧ win0_9.index t (2 : Fin 3) = 0 :=
  (by decide +kernel : ∀ t : Fin grid0.N, _)

/-- At a point that writes back (inner step 31 of outer coordinate c') the block written is slab c' of the two
    accumulators: element (0, b, o) of the block lies at (c', b, o) of the array. -/
private theorem flushed9 (c : Dev nD) (t : Fin cfg0.N) (hf : (cfg0.win 9).flush t = true) :
    (dats (F := Ideal) m 0 c).flushed 9 t = ((cfg0.win 9).blk t).view.read (Elt Ideal) (G9 m c) := by
  have hN : cfg0.N = 64 := N_0
  have h31 : t.val % 32 = 31 := (flush0_9 t).mp hf
  have hlt : t.val < cfg0.N := t.isLt
  have hc : t.val / 32 < 2 := by omega
  show (cfg0.win 9).cut (grid0.coords t) ((dats (F := Ideal) m 0 c).after 9 t) = _
  rw [after0_9]
  refine funext fun (y : S1x256x128.Idx) => ?_
  obtain ⟨u, b, o, rfl⟩ : ∃ (u : Fin 1) (b : Fin 256) (o : Fin 128), y = ix3 u b o := ⟨y 0, y 1, y 2, eq_ix3 y⟩
  obtain rfl : u = 0 := Subsingleton.elim _ _
  show outAfter (F := Ideal) m c t.val t.isLt (ix3 (0 : Fin 1) b o)
    = G9 m c (((cfg0.win 9).blk t).view.emb (ix3 (0 : Fin 1) b o))
  refine (out_flush m c ⟨t.val / 32, hc⟩ t (by show t.val = 32 * (t.val / 32) + 31; omega) b o).trans ?_
  refine (G9_apply m c ⟨t.val / 32, hc⟩ b o).symm.trans (congrArg (G9 m c) (funext fun a => Fin.ext ?_))
  match a with
  | ⟨0, _⟩ =>
    show t.val / 32 = win0_9.index t (0 : Fin 3) * 1 + 1 * (0 : Fin 1).val
    rw [(idx_out t).1]; simp
  | ⟨1, _⟩ =>
    show b.val = win0_9.index t (1 : Fin 3) * 256 + 1 * b.val
    rw [(idx_out t).2.1]; omega
  | ⟨2, _⟩ =>
    show o.val = win0_9.index t (2 : Fin 3) * 128 + 1 * o.val
    rw [(idx_out t).2.2]; omega

/-- The result array ends holding the two accumulators: its block at outer coordinate c' is written back once, at inner
    step 31, and the two blocks cover it. -/
theorem final9 (c : Dev nD) : (dats (F := Ideal) m 0 c).arrAt 9 cfg0.N = G9 m c := by
  have hN : cfg0.N = 64 := N_0
  refine (dats (F := Ideal) m 0 c).arrAt_eq_of_cover 9 (G9 m c) (flushed9 m c) fun i => ?_
  have h0 : (i 0 : Nat) < 2 := (i 0).isLt
  have h1 : (i 1 : Nat) < 256 := (i 1).isLt
  have h2 : (i 2 : Nat) < 128 := (i 2).isLt
  obtain ⟨t, ht⟩ : ∃ t : Fin cfg0.N, t.val = 32 * (i 0 : Nat) + 31 := ⟨⟨32 * (i 0 : Nat) + 31, by omega⟩, rfl⟩
  refine ⟨t, (flush0_9 t).mpr (by omega), ?_⟩
  show i ∈ ((View.whole main_v2).slice (win0_9.rect t)).set
  rw [View.set_slice_whole, Rect.mem_set_unit]
  intro a
  match a with
  | ⟨0, _⟩ =>
    show win0_9.index t (0 : Fin 3) * 1 ≤ (i 0 : Nat) ∧ (i 0 : Nat) < win0_9.index t (0 : Fin 3) * 1 + 1
    rw [(idx_out t).1]; omega
  | ⟨1, _⟩ =>
    show win0_9.index t (1 : Fin 3) * 256 ≤ (i 1 : Nat) ∧ (i 1 : Nat) < win0_9.index t (1 : Fin 3) * 256 + 256
    rw [(idx_out t).2.1]; omega
  | ⟨2, _⟩ =>
    show win0_9.index t (2 : Fin 3) * 128 ≤ (i 2 : Nat) ∧ (i 2 : Nat) < win0_9.index t (2 : Fin 3) * 128 + 128
    rw [(idx_out t).2.2]; omega

end Cert.KernelIdeal.Body

end
-- ==== Proof.Tail.lean ====
/-
  The kernel's program after its region: the two slabs of the result array are added and the padding columns dropped;
  and the whole run read as values.
-/
import proofs.«409326_j70961449664573_3_alg».proof.Proof.KernelArr
import Idealize.ShloMosaic.Lib.StableHlo.Run
import Idealize.ShloMosaic.PureOps.Ideal.Laws

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-- What the program's result buffer ends holding: the sum of the result array's two slabs from zero, columns 0 … 99. -/
def Kres (c : Dev nD) : Buf (Elt Ideal) ((c : Thread nD τ).loc main_v4) :=
  extractStridedSlice S256x100 ![0, 0]
    (Host.reduceAdd (F := Ideal) (G9 m c) (constant S_ .f32 0x00000000#32) reducesTo_S2x256x128_S256x128_d0 h_S_)
    slices_S256x128_S256x100_0_0

/-- Read at (b, o): zero plus the two accumulators at (b, o). -/
theorem Kres_apply (c : Dev nD) (b : Fin 256) (o : Fin 100) :
    Kres m c (ix2 b o) = 0 + ∑ c' : Fin 2, g9 m c c' b (⟨o.val, by have := o.isLt; omega⟩ : Fin 128) := by
  unfold Kres
  -- the slice at (b, o) reads the sum at (b, o), column o of the 128
  refine (extractStridedSlice_apply (s := S256x128) (t := S256x100) ![0, 0] _ slices_S256x128_S256x100_0_0 (ix2 b o)
    (ix2 b (⟨o.val, by have := o.isLt; omega⟩ : Fin 128)) (fun a => by
      match a with
      | ⟨0, _⟩ => show b.val = 0 + b.val; omega
      | ⟨1, _⟩ => show o.val = 0 + o.val; omega)).trans ?_
  -- the sum over the leading axis from the initial value: the initial value plus the sum over that axis's coordinates
  simp only [Host.reduceAdd, Ideal.hostReduceAdd_def]
  rw [Ideal.hostReduceAdd_single reducesTo_S2x256x128_S256x128_d0 (by decide)]
  -- the initial value is the real zero; the index inserted at leading coordinate k is (k, b, o)
  refine congrArg₂ (· + ·) Ideal.ofBits_zero_f32 ?_
  refine Finset.sum_congr rfl fun k _ => ?_
  refine (congrArg (G9 m c) (funext fun a => Fin.ext ?_)).trans
    (G9_apply m c k b (⟨o.val, by have := o.isLt; omega⟩ : Fin 128))
  match a with
  | ⟨0, _⟩ => rfl
  | ⟨1, _⟩ => rfl
  | ⟨2, _⟩ => rfl

/-- The lines after the region leave the result buffer at that value: the result array they read is the two accumulators. -/
private theorem tail_v4 (c : Dev nD) :
    Pipeline.afterTail₀ cfgs (dats (F := Ideal) m) 0 (V0 m) [hostOps1] c main_v4 = Kres m c := by
  unfold Pipeline.afterTail₀
  show StableHlo.after hostOps1 _ (Proc.devRef .tc main_v4) = _
  after_results
  unfold Kres
  -- the result array as the region leaves it
  have e : Pipeline.withArrays (cfgs 0).spec c (V0 m c) (fun w => (dats (F := Ideal) m 0 c).arrAt w (cfgs 0).N)
      (Proc.devRef .tc main_v2) = G9 m c :=
    (Pipeline.withArrays_arr spec0 launch0.win.arr_inj c _ _ 9).trans (final9 m c)
  rw [e]

/-- Every weakly fair execution of the program ends with its result buffer at that value and its arguments unchanged. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4) = Kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  -- the result buffer is no array of the region: it ends as the lines after the region leave it; the seven staged
  -- arguments are input arrays, which end as the region found them, that is as launched; the two padded arguments'
  -- sources are touched by no line after the region
  exact (θ_run defs _ _).mono (fun _ h c =>
    ⟨((h c).2 main_v4 (Pipeline.mem_restRefs_of main_v4 (by decide) (by decide))).trans (tail_v4 m c),
      ((h c).1 0).trans (((dats (F := Ideal) m 0 c).arrAt_in 0 rfl _).trans ((A_eq m c 0).trans (V_main_arg0 m c))),
      ((h c).1 2).trans (((dats (F := Ideal) m 0 c).arrAt_in 2 rfl _).trans ((A_eq m c 2).trans (V_main_arg1 m c))),
      ((h c).1 3).trans (((dats (F := Ideal) m 0 c).arrAt_in 3 rfl _).trans ((A_eq m c 3).trans (V_main_arg2 m c))),
      ((h c).1 4).trans (((dats (F := Ideal) m 0 c).arrAt_in 4 rfl _).trans ((A_eq m c 4).trans (V_main_arg3 m c))),
      ((h c).1 1).trans (((dats (F := Ideal) m 0 c).arrAt_in 1 rfl _).trans ((A_eq m c 1).trans (V_main_arg4 m c))),
      ((h c).1 5).trans (((dats (F := Ideal) m 0 c).arrAt_in 5 rfl _).trans ((A_eq m c 5).trans (V_main_arg5 m c))),
      ((h c).1 6).trans (((dats (F := Ideal) m 0 c).arrAt_in 6 rfl _).trans ((A_eq m c 6).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Body

end
-- ==== Proof.Pads.lean ====
/-
  The two zero-padded weight arrays the kernel's program builds before its region, read below the padding.

  The last layer's weights [4,100,100] and biases [4,100] are padded on the last axis to 128 columns; below column
  100 the padded arrays hold the original entries.
-/
import proofs.«409326_j70961449664573_3_alg».proof.Proof.Gen.KernelIdeal.Frame
import Idealize.ShloMosaic.Lib.ValueIdx
import Idealize.ShloMosaic.Lib.Pipeline.Value
import Idealize.ShloMosaic.Lib.StableHlo.Run
import Idealize.ShloMosaic.Lib.KernelVsHost

set_option maxRecDepth 16384

noncomputable section

namespace Cert.KernelIdeal.Body

open Cert.KernelIdeal Cert.KernelIdeal.Gen
open Idealize.ShloMosaic Idealize.ShloMosaic.TcCoe Idealize.ShloMosaic.ValueIdx Idealize.ShloMosaic.StableHlo
open Idealize.SL Idealize.SL.Sem

variable {F : FTy → Type} [FloatOps F]
variable (m : (ℓ : Loc nD τ sig) → Buf (Elt F) ℓ)

/-- Below column 100 the padded last-layer weights are the weights. -/
theorem V_padW2 (c : Dev nD) (k : Fin 4) (j : Fin 100) (o : Fin 128) (ho : o.val < 100) :
    V m c main_v0 (ix3 k j o) = m ((c : Thread nD τ).loc main_arg7) (ix3 k j (⟨o.val, ho⟩ : Fin 100)) := by
  -- the padded array, as a function of its index: the pad of the launched weights by the converted zero constant
  have e : (V m c main_v0 : S4x100x128.Idx → Elt F .f32) =
      pad S4x100x128 ![0, 0, 0] ![0, 0, 28] ![0, 0, 0] (m ((c : Thread nD τ).loc main_arg7))
        (sitofp .f32 (constantI S_ 32 0#32 : S_.Idx → Elt F .i32)) pads_S4x100x100_S4x100x128_000_000_0280 h_S_ := by
    dsimp only [Gen.V, Gen.V0]
    simp only [Gen.hostOps0, Gen.hostOps0_1, Gen.hostOps0_2, Gen.hostOps0_3, List.flatten_cons, List.flatten_nil,
      List.append_nil, List.cons_append, List.nil_append]
    after_results
    rfl
  rw [e]
  -- no low padding and no interior padding: coordinate (k, j, o) with o < 100 is the operand's coordinate (k, j, o)
  refine pad_apply_of_inside (s := S4x100x100) (t := S4x100x128) ![0, 0, 0] ![0, 0, 28] ![0, 0, 0] _ _
    pads_S4x100x100_S4x100x128_000_000_0280 h_S_ (ix3 k j o) (ix3 k j (⟨o.val, ho⟩ : Fin 100)) ?_
  intro a
  match a with
  | ⟨0, _⟩ => show k.val = 0 + k.val * (0 + 1); omega
  | ⟨1, _⟩ => show j.val = 0 + j.val * (0 + 1); omega
  | ⟨2, _⟩ => show o.val = 0 + o.val * (0 + 1); omega

/-- Below column 100 the padded last-layer biases are the biases. -/
theorem V_padC2 (c : Dev nD) (k : Fin 4) (o : Fin 128) (ho : o.val < 100) :
    V m c main_v1 (ix2 k o) = m ((c : Thread nD τ).loc main_arg8) (ix2 k (⟨o.val, ho⟩ : Fin 100)) := by
  -- the padded array, as a function of its index: the pad of the launched biases by the converted zero constant
  have e : (V m c main_v1 : S4x128.Idx → Elt F .f32) =
      pad S4x128 ![0, 0] ![0, 28] ![0, 0] (m ((c : Thread nD τ).loc main_arg8))
        (sitofp .f32 (constantI S_ 32 0#32 : S_.Idx → Elt F .i32)) pads_S4x100_S4x128_000_0280 h_S_ := by
    dsimp only [Gen.V, Gen.V0]
    simp only [Gen.hostOps0, Gen.hostOps0_1, Gen.hostOps0_2, Gen.hostOps0_3, List.flatten_cons, List.flatten_nil,
      List.append_nil, List.cons_append, List.nil_append]
    after_results
    rfl
  rw [e]
  -- no low padding and no interior padding: coordinate (k, o) with o < 100 is the operand's coordinate (k, o)
  refine pad_apply_of_inside (s := S4x100) (t := S4x128) ![0, 0] ![0, 28] ![0, 0] _ _
    pads_S4x100_S4x128_000_0280 h_S_ (ix2 k o) (ix2 k (⟨o.val, ho⟩ : Fin 100)) ?_
  intro a
  match a with
  | ⟨0, _⟩ => show k.val = 0 + k.val * (0 + 1); omega
  | ⟨1, _⟩ => show o.val = 0 + o.val * (0 + 1); omega

end Cert.KernelIdeal.Body

end
-- ==== Proof.LibTileSum.lean ====
/-
  Sums over consecutive tiles, and a 0/1 factor in a product of extended reals.

  A kernel that sweeps an axis of T·S elements in S tiles of T produces a sum grouped by tile; a reference sums the
  axis in one go.  `sum_range_tiles` and `sum_fin_tiles` join the two groupings, in any commutative monoid (for the
  extended reals no finiteness is needed).  `indicator_mul` turns the product of a 0/1 factor with an extended real
  into a choice between that real and 0: what a one-hot matrix product contributes term by term.
-/
import Idealize.ShloMosaic.Lib.ValueIdx

noncomputable section

namespace Cert.Lib

/-- A 0/1 factor times an extended real x is x where the factor is 1 and 0 where it is 0 (0 · x = 0 also at ±∞). The
    two conditions may be spelt differently (`hpq`). -/
theorem indicator_mul {p q : Prop} [Decidable p] [Decidable q] (hpq : p ↔ q) (x : EReal) :
    (if p then (1 : EReal) else 0) * x = if q then x else 0 := by
  by_cases h : p
  · rw [if_pos h, if_pos (hpq.mp h), one_mul]
  · rw [if_neg h, if_neg (fun hq => h (hpq.mpr hq)), zero_mul]

/-- A sum over S consecutive stretches of T naturals each is the sum over the first T·S naturals. -/
theorem sum_range_tiles {M : Type*} [AddCommMonoid M] (T : ℕ) (H : ℕ → M) :
    ∀ S : ℕ, ∑ s ∈ Finset.range S, ∑ k ∈ Finset.range T, H (T * s + k) = ∑ e ∈ Finset.range (T * S), H e
  | 0 => by simp
  | S + 1 => by
    rw [Finset.sum_range_succ, sum_range_tiles T H S, Nat.mul_succ, Finset.sum_range_add]

/-- The same with the position inside a tile, and the position on the whole axis, as `Fin` indices: S tiles of T
    elements are the T·S elements. -/
theorem sum_fin_tiles {M : Type*} [AddCommMonoid M] (T S : ℕ) (H : ℕ → M) :
    ∑ s ∈ Finset.range S, ∑ k : Fin T, H (T * s + k.val) = ∑ e : Fin (T * S), H e.val := by
  rw [Fin.sum_univ_eq_sum_range H (T * S), ← sum_range_tiles T H S]
  refine Finset.sum_congr rfl fun s _ => ?_
  exact Fin.sum_univ_eq_sum_range (fun x => H (T * s + x)) T

end Cert.Lib

end
-- ==== Proof.Bridge.lean ====
/-
  The tiled one-hot sum is the segment sum.

  The kernel walks the 8192 nodes in 64 tiles of 128 rows, tile 32·c + j at outer coordinate c and inner step j; in each
  tile it adds, for segment b, the values of the rows whose id word equals b's word.  Summed over the inner steps and
  then over the two outer coordinates this is the sum over all nodes whose id, read as a signed integer, is b: for
  b below 256 a 32-bit word equals b's word exactly when its signed reading is b.
-/
import proofs.«409326_j70961449664573_3_alg».proof.Proof.Spec
import proofs.«409326_j70961449664573_3_alg».proof.Proof.LibTileSum

noncomputable section

namespace Cert.Pool

/-- For b below 256 a 32-bit word is b's word exactly when its signed reading is b: b is below 2^31, so its word
    reads back as b, and a word whose signed reading is the non-negative b has unsigned reading b too. -/
private theorem word_iff (b : Fin 256) (x : BitVec 32) : BitVec.ofNat 32 b.val = x ↔ x.toInt = (b.val : Int) := by
  have hb := b.isLt
  have hx := x.isLt
  rw [BitVec.toInt_eq_toNat_cond]
  constructor
  · intro h
    have e : x.toNat = b.val := by
      rw [← h, BitVec.toNat_ofNat]
      omega
    rw [e]
    split <;> omega
  · intro h
    apply BitVec.eq_of_toNat_eq
    rw [BitVec.toNat_ofNat]
    split at h <;> omega

/-- The node values carried to all naturals: v at a node whose id reads b, 0 at the other nodes and past the last one. -/
private def pick (w : Fin 8192 → BitVec 32) (v : Fin 8192 → EReal) (b : Fin 256) (e : ℕ) : EReal :=
  if h : e < 8192 then (if (w ⟨e, h⟩).toInt = (b.val : Int) then v ⟨e, h⟩ else 0) else 0

private theorem pick_of_lt (w : Fin 8192 → BitVec 32) (v : Fin 8192 → EReal) (b : Fin 256) (e : ℕ) (h : e < 8192) :
    pick w v b e = if (w ⟨e, h⟩).toInt = (b.val : Int) then v ⟨e, h⟩ else 0 := dif_pos h

/-- The tiled, one-hot-weighted sum of v — two outer coordinates, 32 inner steps, 128 rows a tile, started from
    zero — is the segment sum of v at b for the ids' signed readings. -/
theorem segSum_tiles (w : Fin 8192 → BitVec 32) (v : Fin 8192 → EReal) (b : Fin 256) :
    (0 : EReal) + ∑ c' : Fin 2, ∑ j ∈ Finset.range 32,
        (if h : 32 * c'.val + j < 64 then
          ∑ r : Fin 128, (if BitVec.ofNat 32 b.val = w ⟨128 * (32 * c'.val + j) + r.val, by have := r.isLt; omega⟩
              then (1 : EReal) else 0) * v ⟨128 * (32 * c'.val + j) + r.val, by have := r.isLt; omega⟩
        else 0)
      = segSum (fun n => (w n).toInt) v b := by
  rw [zero_add, segSum_eq_sum_ite]
  refine (Finset.sum_congr rfl fun c' _ => Finset.sum_congr rfl fun j hj =>
    (?_ : _ = ∑ r : Fin 128, pick w v b (128 * (32 * c'.val + j) + r.val))).trans ?_
  · -- one tile: each row's 0/1 factor times its value is the carried value at the row's node
    have hj' := Finset.mem_range.mp hj
    have hc := c'.isLt
    rw [dif_pos (show 32 * c'.val + j < 64 by omega)]
    refine Finset.sum_congr rfl fun r _ => ?_
    have hr := r.isLt
    have hlt : 128 * (32 * c'.val + j) + r.val < 8192 := by omega
    exact (Cert.Lib.indicator_mul (word_iff b _) _).trans (pick_of_lt w v b _ hlt).symm
  · -- the 32 tiles of an outer coordinate are its 4096 nodes, and the two outer coordinates all 8192
    have h2 : ∀ c : ℕ, ∑ j ∈ Finset.range 32, ∑ r : Fin 128, pick w v b (128 * (32 * c + j) + r.val)
        = ∑ e : Fin 4096, pick w v b (4096 * c + e.val) := fun c =>
      (Finset.sum_congr rfl fun j _ => Finset.sum_congr rfl fun r _ =>
        (congrArg (pick w v b) (by omega) : _ = pick w v b (4096 * c + (128 * j + r.val)))).trans
        (Cert.Lib.sum_fin_tiles 128 32 (fun e => pick w v b (4096 * c + e)))
    calc ∑ c' : Fin 2, ∑ j ∈ Finset.range 32, ∑ r : Fin 128, pick w v b (128 * (32 * c'.val + j) + r.val)
        = ∑ c' : Fin 2, ∑ e : Fin 4096, pick w v b (4096 * c'.val + e.val) :=
          Finset.sum_congr rfl fun c' _ => h2 c'.val
      _ = ∑ c ∈ Finset.range 2, ∑ e : Fin 4096, pick w v b (4096 * c + e.val) :=
          Fin.sum_univ_eq_sum_range (fun c => ∑ e : Fin 4096, pick w v b (4096 * c + e.val)) 2
      _ = ∑ n : Fin 8192, pick w v b n.val := Cert.Lib.sum_fin_tiles 4096 2 (pick w v b)
      _ = ∑ n : Fin 8192, if (w n).toInt = (b.val : Int) then v n else 0 :=
          Finset.sum_congr rfl fun n _ => pick_of_lt w v b n.val n.isLt

end Cert.Pool

end
-- ==== Proof.RefValue.lean ====
/-
  The reference's result read at an index, at the ideal instance: the pooled output of the specification.
-/
import proofs.«409326_j70961449664573_3_alg».proof.Proof.Gen.ReferenceIdeal.Read
import proofs.«409326_j70961449664573_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## The hop matrices stacked, and the four feature rows stacked -/

/-- Slab 0 of the stacked hop matrices is the first hop matrix. -/
private theorem v3_0 (x1 x2 x3 : (⟨S8192x8192, .f32⟩ : BufTy).Contents (Elt Ideal)) (n m : Fin 8192) :
    val_main_v3 (F := Ideal) x1 x2 x3 (ix3 (0 : Fin 3) n m) = x1 (ix2 n m) := by
  unfold val_main_v3
  refine (concatenate_apply_piece (0 : Fin S3x8192x8192.rank) _ _ (ix3 (0 : Fin 3) n m) 0 (by simp) S1x8192x8192
    (val_main_v0 (F := Ideal) x1) rfl rfl 0 rfl (ix3 (0 : Fin 1) n m) ?_ rfl).trans ?_
  · intro b hb
    match b with
    | ⟨0, _⟩ => exact absurd rfl hb
    | ⟨1, _⟩ => rfl
    | ⟨2, _⟩ => rfl
  · rw [val_main_v0_apply]
    exact congrArg x1 (funext fun a => Fin.ext (by match a with | ⟨0, _⟩ => rfl | ⟨1, _⟩ => rfl))

/-- Slab 1 is the second hop matrix. -/
private theorem v3_1 (x1 x2 x3 : (⟨S8192x8192, .f32⟩ : BufTy).Contents (Elt Ideal)) (n m : Fin 8192) :
    val_main_v3 (F := Ideal) x1 x2 x3 (ix3 (1 : Fin 3) n m) = x2 (ix2 n m) := by
  unfold val_main_v3
  refine (concatenate_apply_piece (0 : Fin S3x8192x8192.rank) _ _ (ix3 (1 : Fin 3) n m) 1 (by simp) S1x8192x8192
    (val_main_v1 (F := Ideal) x2) rfl rfl 1 rfl (ix3 (0 : Fin 1) n m) ?_ rfl).trans ?_
  · intro b hb
    match b with
    | ⟨0, _⟩ => exact absurd rfl hb
    | ⟨1, _⟩ => rfl
    | ⟨2, _⟩ => rfl
  · rw [val_main_v1_apply]
    exact congrArg x2 (funext fun a => Fin.ext (by match a with | ⟨0, _⟩ => rfl | ⟨1, _⟩ => rfl))

/-- Slab 2 is the third hop matrix. -/
private theorem v3_2 (x1 x2 x3 : (⟨S8192x8192, .f32⟩ : BufTy).Contents (Elt Ideal)) (n m : Fin 8192) :
    val_main_v3 (F := Ideal) x1 x2 x3 (ix3 (2 : Fin 3) n m) = x3 (ix2 n m) := by
  unfold val_main_v3
  refine (concatenate_apply_piece (0 : Fin S3x8192x8192.rank) _ _ (ix3 (2 : Fin 3) n m) 2 (by simp) S1x8192x8192
    (val_main_v2 (F := Ideal) x3) rfl rfl 2 rfl (ix3 (0 : Fin 1) n m) ?_ rfl).trans ?_
  · intro b hb
    match b with
    | ⟨0, _⟩ => exact absurd rfl hb
    | ⟨1, _⟩ => rfl
    | ⟨2, _⟩ => rfl
  · rw [val_main_v2_apply]
    exact congrArg x3 (funext fun a => Fin.ext (by match a with | ⟨0, _⟩ => rfl | ⟨1, _⟩ => rfl))

/-- A hop projection of the reference: slab k of the stacked hop matrices times the feature matrix. -/
private theorem v4_apply (x0 : (⟨S8192x10, .f32⟩ : BufTy).Contents (Elt Ideal))
    (x1 x2 x3 : (⟨S8192x8192, .f32⟩ : BufTy).Contents (Elt Ideal)) (k : Fin 3) (n : Fin 8192) (d : Fin 10) :
    val_main_v4 (F := Ideal) x0 x1 x2 x3 (ix3 k n d)
      = ∑ m : Fin 8192, val_main_v3 (F := Ideal) x1 x2 x3 (ix3 k n m) * x0 (ix2 m d) := by
  rw [val_main_v4_apply]
  refine Finset.sum_congr rfl fun m _ => ?_
  have el : lidx_main_v4 (ix3 k n d) m = ix3 k n m :=
    funext fun a => Fin.ext (by match a with | ⟨0, _⟩ => rfl | ⟨1, _⟩ => rfl | ⟨2, _⟩ => rfl)
  have er : ridx_main_v4 (ix3 k n d) m = ix2 m d :=
    funext fun a => Fin.ext (by match a with | ⟨0, _⟩ => rfl | ⟨1, _⟩ => rfl)
  rw [el, er]

/-- Row 0 of the stacked feature rows is the node's own features. -/
private theorem v6_0 (x0 : (⟨S8192x10, .f32⟩ : BufTy).Contents (Elt Ideal))
    (x1 x2 x3 : (⟨S8192x8192, .f32⟩ : BufTy).Contents (Elt Ideal)) (n : Fin 8192) (d : Fin 10) :
    val_main_v6 (F := Ideal) x0 x1 x2 x3 (ix3 (0 : Fin 4) n d) = x0 (ix2 n d) := by
  unfold val_main_v6
  refine (concatenate_pair_apply_left (s₁ := S1x8192x10) (s₂ := S3x8192x10) (0 : Fin S4x8192x10.rank) _ _ _ (ix3 (0 : Fin 4) n d) rfl (ix3 (0 : Fin 1) n d) ?_).trans ?_
  · intro b
    match b with
    | ⟨0, _⟩ => rfl
    | ⟨1, _⟩ => rfl
    | ⟨2, _⟩ => rfl
  · rw [val_main_v5_apply]
    exact congrArg x0 (funext fun a => Fin.ext (by match a with | ⟨0, _⟩ => rfl | ⟨1, _⟩ => rfl))

/-- Row k + 1 of the stacked feature rows is hop projection k. -/
private theorem v6_succ (x0 : (⟨S8192x10, .f32⟩ : BufTy).Contents (Elt Ideal))
    (x1 x2 x3 : (⟨S8192x8192, .f32⟩ : BufTy).Contents (Elt Ideal)) (k : Fin 4) (k' : Fin 3) (hk : k'.val + 1 = k.val)
    (n : Fin 8192) (d : Fin 10) :
    val_main_v6 (F := Ideal) x0 x1 x2 x3 (ix3 k n d) = val_main_v4 (F := Ideal) x0 x1 x2 x3 (ix3 k' n d) := by
  unfold val_main_v6
  refine concatenate_pair_apply_right (s₁ := S1x8192x10) (s₂ := S3x8192x10) (0 : Fin S4x8192x10.rank) _ _ _ (ix3 k n d) rfl rfl (ix3 k' n d) ?_ hk
  intro b hb
  match b with
  | ⟨0, _⟩ => exact absurd rfl hb
  | ⟨1, _⟩ => rfl
  | ⟨2, _⟩ => rfl

/-! ## One branch, and a node's value -/

/-- The zero word is the extended real 0. -/
private theorem zero_word : FloatOps.ofBits (F := Ideal) .f32 0x00000000#32 = 0 := Ideal.ofBits_zero_f32

/-- The zero the relu takes its maximum against. -/
private theorem relu_zero (i : S4x8192x100.Idx) : val_main_call0_v0 (F := Ideal) i = 0 := by
  rw [val_main_call0_v0_apply, val_main_call0_cst_apply, zero_word]

/-- The first layer's bias, the same at every node. -/
private theorem v9_at (x6 : (⟨S4x100, .f32⟩ : BufTy).Contents (Elt Ideal)) (k : Fin 4) (n : Fin 8192) (j : Fin 100) :
    val_main_v9 (F := Ideal) x6 (ix3 k n j) = x6 (ix2 k j) := by
  rw [val_main_v9_apply, val_main_v8_apply]
  exact congrArg x6 (funext fun a => Fin.ext (by match a with | ⟨0, _⟩ => rfl | ⟨1, _⟩ => rfl))

/-- The second layer's bias, the same at every node. -/
private theorem v14_at (x8 : (⟨S4x100, .f32⟩ : BufTy).Contents (Elt Ideal)) (k : Fin 4) (n : Fin 8192) (o : Fin 100) :
    val_main_v14 (F := Ideal) x8 (ix3 k n o) = x8 (ix2 k o) := by
  rw [val_main_v14_apply, val_main_v13_apply]
  exact congrArg x8 (funext fun a => Fin.ext (by match a with | ⟨0, _⟩ => rfl | ⟨1, _⟩ => rfl))

/-- The first layer before its bias: feature row k of node n times the first weight matrix of branch k. -/
private theorem v7_at (x0 : (⟨S8192x10, .f32⟩ : BufTy).Contents (Elt Ideal))
    (x1 x2 x3 : (⟨S8192x8192, .f32⟩ : BufTy).Contents (Elt Ideal)) (x5 : (⟨S4x10x100, .f32⟩ : BufTy).Contents (Elt Ideal))
    (k : Fin 4) (n : Fin 8192) (j : Fin 100) :
    val_main_v7 (F := Ideal) x0 x1 x2 x3 x5 (ix3 k n j)
      = ∑ d : Fin 10, val_main_v6 (F := Ideal) x0 x1 x2 x3 (ix3 k n d) * x5 (ix3 k d j) := by
  rw [val_main_v7_apply]
  refine Finset.sum_congr rfl fun d _ => ?_
  have el : lidx_main_v7 (ix3 k n j) d = ix3 k n d :=
    funext fun a => Fin.ext (by match a with | ⟨0, _⟩ => rfl | ⟨1, _⟩ => rfl | ⟨2, _⟩ => rfl)
  have er : ridx_main_v7 (ix3 k n j) d = ix3 k d j :=
    funext fun a => Fin.ext (by match a with | ⟨0, _⟩ => rfl | ⟨1, _⟩ => rfl | ⟨2, _⟩ => rfl)
  rw [el, er]

/-- The hidden layer: the first layer with its bias, cut off below at 0. -/
private theorem v11_at (x0 : (⟨S8192x10, .f32⟩ : BufTy).Contents (Elt Ideal))
    (x1 x2 x3 : (⟨S8192x8192, .f32⟩ : BufTy).Contents (Elt Ideal)) (x5 : (⟨S4x10x100, .f32⟩ : BufTy).Contents (Elt Ideal))
    (x6 : (⟨S4x100, .f32⟩ : BufTy).Contents (Elt Ideal)) (k : Fin 4) (n : Fin 8192) (j : Fin 100) :
    val_main_v11 (F := Ideal) x0 x1 x2 x3 x5 x6 (ix3 k n j)
      = max ((∑ d : Fin 10, val_main_v6 (F := Ideal) x0 x1 x2 x3 (ix3 k n d) * x5 (ix3 k d j)) + x6 (ix2 k j)) 0 := by
  rw [val_main_v11_apply, val_main_v10_apply, Ideal.maximumf_def, Ideal.addf_def, relu_zero, v7_at, v9_at]

/-- One branch of the reference at node n and column o: the specification's perceptron on row k of the stacked features. -/
private theorem v15_at (x0 : (⟨S8192x10, .f32⟩ : BufTy).Contents (Elt Ideal))
    (x1 x2 x3 : (⟨S8192x8192, .f32⟩ : BufTy).Contents (Elt Ideal)) (x5 : (⟨S4x10x100, .f32⟩ : BufTy).Contents (Elt Ideal))
    (x6 : (⟨S4x100, .f32⟩ : BufTy).Contents (Elt Ideal)) (x7 : (⟨S4x100x100, .f32⟩ : BufTy).Contents (Elt Ideal))
    (x8 : (⟨S4x100, .f32⟩ : BufTy).Contents (Elt Ideal)) (k : Fin 4) (n : Fin 8192) (o : Fin 100) :
    val_main_v15 (F := Ideal) x0 x1 x2 x3 x5 x6 x7 x8 (ix3 k n o)
      = Cert.Pool.branch (fun d => val_main_v6 (F := Ideal) x0 x1 x2 x3 (ix3 k n d)) (fun d j => x5 (ix3 k d j))
          (fun j => x6 (ix2 k j)) (fun j o => x7 (ix3 k j o)) (fun o => x8 (ix2 k o)) o := by
  rw [val_main_v15_apply, Ideal.addf_def, v14_at, val_main_v12_apply]
  unfold Cert.Pool.branch
  refine congrArg (· + x8 (ix2 k o)) (Finset.sum_congr rfl fun j _ => ?_)
  have el : lidx_main_v12 (ix3 k n o) j = ix3 k n j :=
    funext fun a => Fin.ext (by match a with | ⟨0, _⟩ => rfl | ⟨1, _⟩ => rfl | ⟨2, _⟩ => rfl)
  have er : ridx_main_v12 (ix3 k n o) j = ix3 k j o :=
    funext fun a => Fin.ext (by match a with | ⟨0, _⟩ => rfl | ⟨1, _⟩ => rfl | ⟨2, _⟩ => rfl)
  rw [el, er, v11_at]

/-- The reference's value of node n at column o: the four branches, on the node's own features and its three hop
    projections, added in branch order. -/
private theorem v16_at (x0 : (⟨S8192x10, .f32⟩ : BufTy).Contents (Elt Ideal))
    (x1 x2 x3 : (⟨S8192x8192, .f32⟩ : BufTy).Contents (Elt Ideal)) (x5 : (⟨S4x10x100, .f32⟩ : BufTy).Contents (Elt Ideal))
    (x6 : (⟨S4x100, .f32⟩ : BufTy).Contents (Elt Ideal)) (x7 : (⟨S4x100x100, .f32⟩ : BufTy).Contents (Elt Ideal))
    (x8 : (⟨S4x100, .f32⟩ : BufTy).Contents (Elt Ideal)) (n : Fin 8192) (o : Fin 100) :
    val_main_v16 (F := Ideal) x0 x1 x2 x3 x5 x6 x7 x8 (ix2 n o)
      = Cert.Pool.node (fun d => x0 (ix2 n d))
          (Cert.Pool.proj (fun n m => x1 (ix2 n m)) (fun n d => x0 (ix2 n d)) n)
          (Cert.Pool.proj (fun n m => x2 (ix2 n m)) (fun n d => x0 (ix2 n d)) n)
          (Cert.Pool.proj (fun n m => x3 (ix2 n m)) (fun n d => x0 (ix2 n d)) n)
          (fun k d j => x5 (ix3 k d j)) (fun k j => x6 (ix2 k j)) (fun k j o => x7 (ix3 k j o)) (fun k o => x8 (ix2 k o)) o := by
  have e : ∀ k : Fin 4, idx_main_v16 (ix2 n o) k = ix3 k n o := fun k =>
    funext fun a => Fin.ext (by match a with | ⟨0, _⟩ => rfl | ⟨1, _⟩ => rfl | ⟨2, _⟩ => rfl)
  have f0 : (fun d => val_main_v6 (F := Ideal) x0 x1 x2 x3 (ix3 (0 : Fin 4) n d)) = fun d => x0 (ix2 n d) :=
    funext fun d => v6_0 x0 x1 x2 x3 n d
  have f1 : (fun d => val_main_v6 (F := Ideal) x0 x1 x2 x3 (ix3 (1 : Fin 4) n d))
      = Cert.Pool.proj (fun n m => x1 (ix2 n m)) (fun n d => x0 (ix2 n d)) n := funext fun d => by
    rw [v6_succ x0 x1 x2 x3 1 0 rfl, v4_apply]
    unfold Cert.Pool.proj
    exact Finset.sum_congr rfl fun m _ => by rw [v3_0]
  have f2 : (fun d => val_main_v6 (F := Ideal) x0 x1 x2 x3 (ix3 (2 : Fin 4) n d))
      = Cert.Pool.proj (fun n m => x2 (ix2 n m)) (fun n d => x0 (ix2 n d)) n := funext fun d => by
    rw [v6_succ x0 x1 x2 x3 2 1 rfl, v4_apply]
    unfold Cert.Pool.proj
    exact Finset.sum_congr rfl fun m _ => by rw [v3_1]
  have f3 : (fun d => val_main_v6 (F := Ideal) x0 x1 x2 x3 (ix3 (3 : Fin 4) n d))
      = Cert.Pool.proj (fun n m => x3 (ix2 n m)) (fun n d => x0 (ix2 n d)) n := funext fun d => by
    rw [v6_succ x0 x1 x2 x3 3 2 rfl, v4_apply]
    unfold Cert.Pool.proj
    exact Finset.sum_congr rfl fun m _ => by rw [v3_2]
  rw [val_main_v16_apply, val_main_cst_apply, zero_word, zero_add, Fin.sum_univ_four,
    e 0, e 1, e 2, e 3, v15_at, v15_at, v15_at, v15_at, f0, f1, f2, f3]
  rfl

/-! ## The scatter-add: where an update lands, and the sum of the updates landing on one element -/

/-- The scatter's dimension numbers: updates [8192, 100] with window axis 1, operand [256, 100] with axis 0 inserted
    and named by the one-component index vector on axis 1 of the indices [8192, 1]. -/
private abbrev dS : ScatterDims S256x100 S8192x1 S8192x100 := scatter_S256x100_S8192x1_S8192x100_1_0_0_1

/-- On the segment axis an update's window starts at its node's index word, read signed. -/
private theorem start_0 {w : Nat} (n : Fin 8192) (o' : Fin 100) (idx : IVec S8192x1 w) :
    dS.start (ix2 n o') idx 0 = (idx (ix2 n (0 : Fin 1))).toInt := by
  unfold ScatterDims.start
  rw [dif_pos (show (0 : Fin S256x100.rank) ∈ dS.scatterDimsToOperandDims by decide)]
  refine congrArg (fun i => (idx i).toInt) (funext fun b => Fin.ext ?_)
  match b with
  | ⟨0, _⟩ => rfl
  | ⟨1, _⟩ => rfl

/-- On the column axis it starts at 0. -/
private theorem start_1 {w : Nat} (n : Fin 8192) (o' : Fin 100) (idx : IVec S8192x1 w) :
    dS.start (ix2 n o') idx 1 = 0 := by
  unfold ScatterDims.start
  rw [dif_neg (show ¬(1 : Fin S256x100.rank) ∈ dS.scatterDimsToOperandDims by decide)]

/-- The window has no extent on the segment axis. -/
private theorem window_0 (n : Fin 8192) (o' : Fin 100) : dS.window (ix2 n o') 0 = 0 := by
  unfold ScatterDims.window
  rw [dif_neg (show ¬(0 : Fin S256x100.rank) ∈ dS.sKept by decide)]

/-- On the column axis the window coordinate is the update's column. -/
private theorem window_1 (n : Fin 8192) (o' : Fin 100) : dS.window (ix2 n o') 1 = o'.val := by
  unfold ScatterDims.window
  rw [dif_pos (show (1 : Fin S256x100.rank) ∈ dS.sKept by decide)]
  rfl

/-- Update (n, o') lands on element (b, o) exactly when node n's index word, read signed, is b and o' = o. -/
private theorem resultIdx_iff {w : Nat} (idx : IVec S8192x1 w) (n : Fin 8192) (o' o : Fin 100) (b : Fin 256) :
    dS.resultIdx? (ix2 n o') idx = some (ix2 b o)
      ↔ (idx (ix2 n (0 : Fin 1))).toInt = (b.val : Int) ∧ o' = o := by
  unfold ScatterDims.resultIdx?
  constructor
  · intro h
    split at h
    · next hall =>
      have h' := Option.some.inj h
      have e0 : (dS.start (ix2 n o') idx 0 + (dS.window (ix2 n o') 0 : Int)).toNat = b.val :=
        congrArg (fun f : S256x100.Idx => (f 0).val) h'
      have e1 : (dS.start (ix2 n o') idx 1 + (dS.window (ix2 n o') 1 : Int)).toNat = o.val :=
        congrArg (fun f : S256x100.Idx => (f 1).val) h'
      have hb0 := (hall 0).1
      rw [start_0, window_0] at e0 hb0
      rw [start_1, window_1] at e1
      exact ⟨by omega, Fin.ext (by omega)⟩
    · exact absurd h (by simp)
  · rintro ⟨hs, rfl⟩
    have hall : ∀ a : Fin S256x100.rank, 0 ≤ dS.start (ix2 n o') idx a + (dS.window (ix2 n o') a : Int)
        ∧ dS.start (ix2 n o') idx a + (dS.window (ix2 n o') a : Int) < (S256x100.size a : Int) := by
      intro a
      match a with
      | ⟨0, _⟩ =>
        show 0 ≤ dS.start (ix2 n o') idx 0 + (dS.window (ix2 n o') 0 : Int)
          ∧ dS.start (ix2 n o') idx 0 + (dS.window (ix2 n o') 0 : Int) < ((256 : Nat) : Int)
        rw [start_0, window_0, hs]
        have := b.isLt
        omega
      | ⟨1, _⟩ =>
        show 0 ≤ dS.start (ix2 n o') idx 1 + (dS.window (ix2 n o') 1 : Int)
          ∧ dS.start (ix2 n o') idx 1 + (dS.window (ix2 n o') 1 : Int) < ((100 : Nat) : Int)
        rw [start_1, window_1]
        have := o'.isLt
        omega
    rw [dif_pos hall]
    refine congrArg some (funext fun a => Fin.ext ?_)
    match a with
    | ⟨0, _⟩ =>
      show (dS.start (ix2 n o') idx 0 + (dS.window (ix2 n o') 0 : Int)).toNat = b.val
      rw [start_0, window_0, hs]
      omega
    | ⟨1, _⟩ =>
      show (dS.start (ix2 n o') idx 1 + (dS.window (ix2 n o') 1 : Int)).toNat = o'.val
      rw [start_1, window_1]
      omega

/-- The updates landing on element (b, o), summed: the segment sum over the nodes whose index word reads b, at column o. -/
private theorem scatter_sum {w : Nat} (idx : IVec S8192x1 w) (upd : S8192x100.Idx → EReal) (b : Fin 256) (o : Fin 100)
    [DecidablePred fun j : S8192x100.Idx => dS.resultIdx? j idx = some (ix2 b o)] :
    ∑ j ∈ Finset.univ.filter (fun j : S8192x100.Idx => dS.resultIdx? j idx = some (ix2 b o)), upd j
      = Cert.Pool.segSum (fun n => (idx (ix2 n (0 : Fin 1))).toInt) (fun n => upd (ix2 n o)) b := by
  rw [Cert.Pool.segSum_eq_sum_ite, Finset.sum_filter]
  refine (sum_idx2 (n0 := 8192) (n1 := 100) _).trans ?_
  refine Finset.sum_congr rfl fun n _ => ?_
  by_cases hs : (idx (ix2 n (0 : Fin 1))).toInt = (b.val : Int)
  · rw [if_pos hs, Finset.sum_eq_single o]
    · rw [if_pos ((resultIdx_iff idx n o o b).2 ⟨hs, rfl⟩)]
    · intro o' _ hne
      rw [if_neg (fun h => hne ((resultIdx_iff idx n o' o b).1 h).2)]
    · intro h
      exact absurd (Finset.mem_univ o) h
  · rw [if_neg hs]
    refine Finset.sum_eq_zero fun o' _ => ?_
    rw [if_neg (fun h => hs ((resultIdx_iff idx n o' o b).1 h).1)]

/-- The scatter-add read at element (b, o): the operand's element plus the segment sum of the updates' column o. -/
private theorem scatterAdd_apply (x : FVec Ideal S256x100 .f32) (idx : IVec S8192x1 32) (upd : FVec Ideal S8192x100 .f32)
    (b : Fin 256) (o : Fin 100) :
    Host.scatterAdd dS x idx upd (ix2 b o)
      = x (ix2 b o) + Cert.Pool.segSum (fun n => (idx (ix2 n (0 : Fin 1))).toInt) (fun n => upd (ix2 n o)) b := by
  simp only [Host.scatterAdd, Ideal.hostScatterAdd_def]
  unfold Ideal.hostScatterAdd
  exact congrArg (x (ix2 b o) + ·) (scatter_sum idx upd b o)

/-! ## The reference's result -/

/-- The reference's scatter-add of the node values, read at segment b and column o, is the specification's pooled
    output of the argument arrays read coordinate by coordinate; a node's segment id is its word read as a signed
    integer. -/
theorem ref_pooled (x0 : (⟨S8192x10, .f32⟩ : BufTy).Contents (Elt Ideal))
    (x1 x2 x3 : (⟨S8192x8192, .f32⟩ : BufTy).Contents (Elt Ideal)) (x4 : (⟨S8192, .i32⟩ : BufTy).Contents (Elt Ideal))
    (x5 : (⟨S4x10x100, .f32⟩ : BufTy).Contents (Elt Ideal)) (x6 : (⟨S4x100, .f32⟩ : BufTy).Contents (Elt Ideal))
    (x7 : (⟨S4x100x100, .f32⟩ : BufTy).Contents (Elt Ideal)) (x8 : (⟨S4x100, .f32⟩ : BufTy).Contents (Elt Ideal))
    (b : Fin 256) (o : Fin 100) :
    val_main_v19 (F := Ideal) x0 x1 x2 x3 x4 x5 x6 x7 x8 (ix2 b o)
      = Cert.Pool.pooled (fun n d => x0 (ix2 n d)) (fun n m => x1 (ix2 n m)) (fun n m => x2 (ix2 n m))
          (fun n m => x3 (ix2 n m)) (fun n => (x4 (ix1 n)).toInt) (fun k d j => x5 (ix3 k d j))
          (fun k j => x6 (ix2 k j)) (fun k j o => x7 (ix3 k j o)) (fun k o => x8 (ix2 k o)) b o := by
  -- a node's index word, through the column the scatter reads it from
  have hseg : (fun n : Fin 8192 => (val_main_v18 (F := Ideal) x4 (ix2 n (0 : Fin 1))).toInt)
      = fun n => (x4 (ix1 n)).toInt := funext fun n => by
    rw [val_main_v18_apply]
    exact congrArg (fun i => (x4 i).toInt) (funext fun a => Fin.ext (by match a with | ⟨0, _⟩ => rfl))
  unfold val_main_v19
  refine (scatterAdd_apply _ _ _ b o).trans ?_
  rw [val_main_v17_apply, val_main_cst_0_apply, zero_word, zero_add]
  unfold Cert.Pool.pooled
  refine (congrArg (fun s => Cert.Pool.segSum s _ b) hseg).trans ?_
  exact Cert.Pool.segSum_congr _ (fun n => v16_at x0 x1 x2 x3 x5 x6 x7 x8 n o) b

end Cert.ReferenceIdeal.RefValue

end
-- ==== Proof.Final.lean ====
/-
  The kernel program's result is the reference's result, as functions of the launched arrays, at the ideal instance.

  At (b, o) the program's result is zero plus the two accumulators, each the sum of 32 tiles' one-hot weighted node
  values: the segment sum of the node values over all 8192 nodes.  Below column 100 the padded last layer is the last
  layer, so a node's padded value there is its value; and the reference's scatter-add is the same segment sum.
-/
import proofs.«409326_j70961449664573_3_alg».proof.Proof.Tail
import proofs.«409326_j70961449664573_3_alg».proof.Proof.Pads
import proofs.«409326_j70961449664573_3_alg».proof.Proof.Bridge
import proofs.«409326_j70961449664573_3_alg».proof.Proof.RefValue

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-- A node's value at a column of the padded last layer is its value at the column of the last layer it agrees with:
    the last layer's weights and biases enter a node's value only at that one column. -/
private theorem node_pad (f0 f1 f2 f3 : Fin 10 → EReal) (W1 : Fin 4 → Fin 10 → Fin 100 → EReal) (B1 : Fin 4 → Fin 100 → EReal)
    (W2p : Fin 4 → Fin 100 → Fin 128 → EReal) (B2p : Fin 4 → Fin 128 → EReal)
    (W2 : Fin 4 → Fin 100 → Fin 100 → EReal) (B2 : Fin 4 → Fin 100 → EReal) (o : Fin 100) (o' : Fin 128)
    (hW : ∀ k j, W2p k j o' = W2 k j o) (hB : ∀ k, B2p k o' = B2 k o) :
    Cert.Pool.node f0 f1 f2 f3 W1 B1 W2p B2p o' = Cert.Pool.node f0 f1 f2 f3 W1 B1 W2 B2 o := by
  unfold Cert.Pool.node Cert.Pool.branch
  simp only [hW, hB]

/-- The program's result buffer ends at the reference's pooled output of the launched arrays. -/
theorem Kres_eq_ref (c : Dev nD) :
    Kres m c = Cert.ReferenceIdeal.Read.val_main_v19 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  funext i
  obtain ⟨b, o, rfl⟩ : ∃ (b : Fin 256) (o : Fin 100), i = ix2 b o := ⟨i 0, i 1, eq_ix2 i⟩
  have ho : o.val < 100 := o.isLt
  -- the program's side: zero plus the two accumulators is the tiled one-hot sum, which is the segment sum of the
  -- nodes' padded values at column o
  refine (Kres_apply m c b o).trans ?_
  refine Eq.trans ?_ (Cert.ReferenceIdeal.RefValue.ref_pooled _ _ _ _ _ _ _ _ _ b o).symm
  refine (Eq.trans ?_ (Cert.Pool.segSum_tiles (aI m c)
    (fun n => nodeP m c n (⟨o.val, by omega⟩ : Fin 128)) b)).trans ?_
  · unfold g9 contribN rowN
    rfl
  · -- the reference's side: the same segment sum, of the nodes' values; below column 100 the padded last layer is
    -- the last layer
    unfold Cert.Pool.pooled
    refine Cert.Pool.segSum_congr _ (fun n => ?_) b
    exact node_pad _ _ _ _ _ _ (pW2 m c) (pC2 m c) (aW2 m c) (aC2 m c) o (⟨o.val, by omega⟩ : Fin 128)
      (fun k j => V_padW2 m c k j (⟨o.val, by omega⟩ : Fin 128) ho)
      (fun k => V_padC2 m c k (⟨o.val, by omega⟩ : Fin 128) ho)

end Cert.KernelIdeal.Body

end
-- ==== Proof.lean ====
/- The pooled output of a four-branch subgraph network, computed block by block on the chip, is the one jnp computes.

   The kernel walks the 8192 nodes in 64 blocks of 128 rows, 32 blocks on each of two outer grid coordinates.  For a
   block it forms the three hop projections of the block's rows, runs the four two-layer perceptrons on the block's own
   features and on the three projections, adds the four results, and multiplies the 128 node values from the left by
   the one-hot matrix of the block's segment ids; the product is added into an accumulator that is zeroed at the first
   block of an outer coordinate and written out after its last.  The program then adds the two accumulators and drops
   the 28 padding columns of the last layer.  The reference stacks the features and projections, runs the four
   perceptrons as batched products, sums over the branches and scatter-adds the node values by segment id.

   Over the extended reals both are the same function of the arguments: a block's matrix products are the reference's
   sums over the same index sets; the one-hot product keeps a node's value where its id is the segment and contributes
   zero elsewhere (also for an id that names no segment, which the scatter drops); the sums over 128 rows, 32 inner
   steps and 2 outer coordinates regroup to the sum over all nodes; and below column 100 the padded last layer is the
   last layer.  No step needs the inputs to be finite.

   The three frames are the generated ones (the reference's is its generated run with the result dropped); the ideal
   pass rewrote nothing, so preserves is trivial. -/
import proofs.«409326_j70961449664573_3_alg».proof.Defs
import proofs.«409326_j70961449664573_3_alg».proof.Proof.Gen.Kernel
import proofs.«409326_j70961449664573_3_alg».proof.Proof.Gen.Kernel.Skeleton
import proofs.«409326_j70961449664573_3_alg».proof.Proof.Gen.Kernel.Launch
import proofs.«409326_j70961449664573_3_alg».proof.Proof.Gen.Kernel.Points
import proofs.«409326_j70961449664573_3_alg».proof.Proof.Gen.Kernel.Frame
import proofs.«409326_j70961449664573_3_alg».proof.Proof.Gen.KernelIdeal
import proofs.«409326_j70961449664573_3_alg».proof.Proof.Gen.KernelIdeal.Skeleton
import proofs.«409326_j70961449664573_3_alg».proof.Proof.Gen.KernelIdeal.Launch
import proofs.«409326_j70961449664573_3_alg».proof.Proof.Gen.KernelIdeal.Points
import proofs.«409326_j70961449664573_3_alg».proof.Proof.Gen.KernelIdeal.Frame
import proofs.«409326_j70961449664573_3_alg».proof.Proof.Gen.ReferenceIdeal
import proofs.«409326_j70961449664573_3_alg».proof.Proof.Gen.Pre_finite_inputs
import proofs.«409326_j70961449664573_3_alg».proof.Proof.Gen.ReferenceIdeal.Run
import proofs.«409326_j70961449664573_3_alg».proof.Proof.Gen.ReferenceIdeal.Read
import proofs.«409326_j70961449664573_3_alg».proof.Proof.Final
import Idealize.ShloMosaic.Adequacy
import Idealize.ShloMosaic.Init

noncomputable section

namespace Cert.Proof

open Idealize.ShloMosaic Idealize.SL.Sem

/-- The word-level kernel program terminates without a fault and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- And the idealized reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments both idealized programs end with the pooled output of those arguments. -/
theorem algebraic : Cert.algebraic_KernelIdeal_ReferenceIdeal := by
  intro m ρ m' ρ' _ hagree
  refine ⟨fun c => Cert.KernelIdeal.Body.Kres m c, Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  exact (Cert.KernelIdeal.Body.Kres_eq_ref m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
